-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x20x20 : Shape := ⟨3, ![65536, 20, 20]⟩
abbrev S20x20 : Shape := ⟨2, ![20, 20]⟩
abbrev S10x20 : Shape := ⟨2, ![10, 20]⟩
abbrev S20x10 : Shape := ⟨2, ![20, 10]⟩
abbrev S512x400 : Shape := ⟨2, ![512, 400]⟩
abbrev S512 : Shape := ⟨1, ![512]⟩
abbrev S_ : Shape := ⟨0, ![]⟩

class Facts : Prop where
  bcast_S_S65536x20x20 : S_.BroadcastsInDim S65536x20x20 (![] : Fin 0 → Fin S65536x20x20.rank)
  reducesTo_S65536x20x20_S_d0_1_2 : S65536x20x20.ReducesTo [0, 1, 2] S_
  h_S_ : 0 < S_.numel
  bcast_S_S20x20 : S_.BroadcastsInDim S20x20 (![] : Fin 0 → Fin S20x20.rank)
  reducesTo_S20x20_S_d0_1 : S20x20.ReducesTo [0, 1] S_
  bcast_S_S10x20 : S_.BroadcastsInDim S10x20 (![] : Fin 0 → Fin S10x20.rank)
  reducesTo_S10x20_S_d0_1 : S10x20.ReducesTo [0, 1] S_
  bcast_S_S20x10 : S_.BroadcastsInDim S20x10 (![] : Fin 0 → Fin S20x10.rank)
  reducesTo_S20x10_S_d0_1 : S20x10.ReducesTo [0, 1] S_
  bcast_S_S512x400 : S_.BroadcastsInDim S512x400 (![] : Fin 0 → Fin S512x400.rank)
  reducesTo_S512x400_S_d0_1 : S512x400.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_arg4 : FVec F S20x10 .f32) (main_arg5 : FVec F S512x400 .f32) (main_arg6 : FVec F S512 .f32) (main_v13 : IVec S_ 1) (main_v16 : IVec S10x20 1) : IVec S_ 1 :=
  let main_c_5 : IVec S_ 1 := constantI S_ 1 1#1
  let main_v17 : IVec S_ 1 := (fun x v => Host.reduce IntOp.andi x v reducesTo_S10x20_S_d0_1 h_S_) main_v16 main_c_5
  let main_v18 : IVec S_ 1 := andi main_v13 main_v17
  let main_v19 : FVec F S20x10 .f32 := Host.absf main_arg4
  let main_cst_6 : FVec F S_ .f32 := constant S_ .f32 0x7F800000#32
  let main_v20 : FVec F S20x10 .f32 := broadcastInDim S20x10 ![] bcast_S_S20x10 main_cst_6
  let main_v21 : IVec S20x10 1 := cmpf .olt main_v19 main_v20
  let main_c_7 : IVec S_ 1 := constantI S_ 1 1#1
  let main_v22 : IVec S_ 1 := (fun x v => Host.reduce IntOp.andi x v reducesTo_S20x10_S_d0_1 h_S_) main_v21 main_c_7
  let main_v23 : IVec S_ 1 := andi main_v18 main_v22
  let main_v24 : FVec F S512x400 .f32 := Host.absf main_arg5
  let main_cst_8 : FVec F S_ .f32 := constant S_ .f32 0x7F800000#32
  let main_v25 : FVec F S512x400 .f32 := broadcastInDim S512x400 ![] bcast_S_S512x400 main_cst_8
  let main_v26 : IVec S512x400 1 := cmpf .olt main_v24 main_v25
  let main_c_9 : IVec S_ 1 := constantI S_ 1 1#1
  let main_v27 : IVec S_ 1 := (fun x v => Host.reduce IntOp.andi x v reducesTo_S512x400_S_d0_1 h_S_) main_v26 main_c_9
  let main_v28 : IVec S_ 1 := andi main_v23 main_v27
  let main_v29 : FVec F S512 .f32 := Host.absf main_arg6
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  main_v33

def fn {F : FTy → Type} [FloatOps F] (main_arg0 : FVec F S65536x20x20 .f32) (main_arg1 : FVec F S65536x20x20 .f32) (main_arg2 : FVec F S20x20 .f32) (main_arg3 : FVec F S10x20 .f32) (main_arg4 : FVec F S20x10 .f32) (main_arg5 : FVec F S512x400 .f32) (main_arg6 : FVec F S512 .f32) : IVec S_ 1 :=
  let main_v0 : FVec F S65536x20x20 .f32 := Host.absf main_arg0
  let main_cst : FVec F S_ .f32 := constant S_ .f32 0x7F800000#32
  let main_v1 : FVec F S65536x20x20 .f32 := broadcastInDim S65536x20x20 ![] bcast_S_S65536x20x20 main_cst
  let main_v2 : IVec S65536x20x20 1 := cmpf .olt main_v0 main_v1
  let main_c : IVec S_ 1 := constantI S_ 1 1#1
  let main_v3 : IVec S_ 1 := (fun x v => Host.reduce IntOp.andi x v reducesTo_S65536x20x20_S_d0_1_2 h_S_) main_v2 main_c
  let main_v4 : FVec F S65536x20x20 .f32 := Host.absf main_arg1
  let main_cst_0 : FVec F S_ .f32 := constant S_ .f32 0x7F800000#32
  let main_v5 : FVec F S65536x20x20 .f32 := broadcastInDim S65536x20x20 ![] bcast_S_S65536x20x20 main_cst_0
  let main_v6 : IVec S65536x20x20 1 := cmpf .olt main_v4 main_v5
  let main_c_1 : IVec S_ 1 := constantI S_ 1 1#1
  let main_v7 : IVec S_ 1 := (fun x v => Host.reduce IntOp.andi x v reducesTo_S65536x20x20_S_d0_1_2 h_S_) main_v6 main_c_1
  let main_v8 : IVec S_ 1 := andi main_v3 main_v7
  let main_v9 : FVec F S20x20 .f32 := Host.absf main_arg2
  let main_cst_2 : FVec F S_ .f32 := constant S_ .f32 0x7F800000#32
  let main_v10 : FVec F S20x20 .f32 := broadcastInDim S20x20 ![] bcast_S_S20x20 main_cst_2
  let main_v11 : IVec S20x20 1 := cmpf .olt main_v9 main_v10
  let main_c_3 : IVec S_ 1 := constantI S_ 1 1#1
  let main_v12 : IVec S_ 1 := (fun x v => Host.reduce IntOp.andi x v reducesTo_S20x20_S_d0_1 h_S_) main_v11 main_c_3
  let main_v13 : IVec S_ 1 := andi main_v8 main_v12
  let main_v14 : FVec F S10x20 .f32 := Host.absf main_arg3
  let main_cst_4 : FVec F S_ .f32 := constant S_ .f32 0x7F800000#32
  let main_v15 : FVec F S10x20 .f32 := broadcastInDim S10x20 ![] bcast_S_S10x20 main_cst_4
  let main_v16 : IVec S10x20 1 := cmpf .olt main_v14 main_v15
  fn_part1 (F := F) main_arg4 main_arg5 main_arg6 main_v13 main_v16
-- ==== Kernel.lean ====
abbrev S65536x20x20 : Shape := ⟨3, ![65536, 20, 20]⟩
abbrev S20x20 : Shape := ⟨2, ![20, 20]⟩
abbrev S10x20 : Shape := ⟨2, ![10, 20]⟩
abbrev S20x10 : Shape := ⟨2, ![20, 10]⟩
abbrev S512x400 : Shape := ⟨2, ![512, 400]⟩
abbrev S512 : Shape := ⟨1, ![512]⟩
abbrev S65536x400 : Shape := ⟨2, ![65536, 400]⟩
abbrev S1x512 : Shape := ⟨2, ![1, 512]⟩
abbrev S_ : Shape := ⟨0, ![]⟩
abbrev S20x1x20x1 : Shape := ⟨4, ![20, 1, 20, 1]⟩
abbrev S1x20x1x20 : Shape := ⟨4, ![1, 20, 1, 20]⟩
abbrev S20x20x20x20 : Shape := ⟨4, ![20, 20, 20, 20]⟩
abbrev S400x400 : Shape := ⟨2, ![400, 400]⟩
abbrev S1x20x1x10 : Shape := ⟨4, ![1, 20, 1, 10]⟩
abbrev S20x20x20x10 : Shape := ⟨4, ![20, 20, 20, 10]⟩
abbrev S400x200 : Shape := ⟨2, ![400, 200]⟩
abbrev S1x10x1x20 : Shape := ⟨4, ![1, 10, 1, 20]⟩
abbrev S20x10x20x20 : Shape := ⟨4, ![20, 10, 20, 20]⟩
abbrev S200x400 : Shape := ⟨2, ![200, 400]⟩
abbrev S65536x512 : Shape := ⟨2, ![65536, 512]⟩
abbrev S512x512 : Shape := ⟨2, ![512, 512]⟩
abbrev S512x20x20 : Shape := ⟨3, ![512, 20, 20]⟩
abbrev S512x200 : Shape := ⟨2, ![512, 200]⟩
abbrev S512x20x10 : Shape := ⟨3, ![512, 20, 10]⟩
abbrev S512x1 : Shape := ⟨2, ![512, 1]⟩

abbrev nBuf : Space → Nat
  | .hbm => 43
  | .vmem => 11
  | .smem => 0
  | _ => 0

abbrev bufTy : (tb : Table) → Fin (tcTables nBuf tb) → BufTy
  | .hbm, ⟨0, _⟩ => ⟨S65536x20x20, .f32⟩
  | .hbm, ⟨1, _⟩ => ⟨S65536x20x20, .f32⟩
  | .hbm, ⟨2, _⟩ => ⟨S20x20, .f32⟩
  | .hbm, ⟨3, _⟩ => ⟨S10x20, .f32⟩
  | .hbm, ⟨4, _⟩ => ⟨S20x10, .f32⟩
  | .hbm, ⟨5, _⟩ => ⟨S512x400, .f32⟩
  | .hbm, ⟨6, _⟩ => ⟨S512, .f32⟩
  | .hbm, ⟨7, _⟩ => ⟨S65536x400, .f32⟩
  | .hbm, ⟨8, _⟩ => ⟨S65536x400, .f32⟩
  | .hbm, ⟨9, _⟩ => ⟨S1x512, .f32⟩
  | .hbm, ⟨10, _⟩ => ⟨S20x20, .i32⟩
  | .hbm, ⟨11, _⟩ => ⟨S20x20, .i32⟩
  | .hbm, ⟨12, _⟩ => ⟨S_, .i32⟩
  | .hbm, ⟨13, _⟩ => ⟨S20x20, .i32⟩
  | .hbm, ⟨14, _⟩ => ⟨S20x20, .i32⟩
  | .hbm, ⟨15, _⟩ => ⟨S20x20, .i1⟩
  | .hbm, ⟨16, _⟩ => ⟨S20x20, .f32⟩
  | .hbm, ⟨17, _⟩ => ⟨S20x20, .f32⟩
  | .hbm, ⟨18, _⟩ => ⟨S20x1x20x1, .f32⟩
  | .hbm, ⟨19, _⟩ => ⟨S1x20x1x20, .f32⟩
  | .hbm, ⟨20, _⟩ => ⟨S20x20x20x20, .f32⟩
  | .hbm, ⟨21, _⟩ => ⟨S20x20x20x20, .f32⟩
  | .hbm, ⟨22, _⟩ => ⟨S20x20x20x20, .f32⟩
  | .hbm, ⟨23, _⟩ => ⟨S400x400, .f32⟩
  | .hbm, ⟨24, _⟩ => ⟨S400x400, .bf16⟩
  | .hbm, ⟨25, _⟩ => ⟨S20x10, .f32⟩
  | .hbm, ⟨26, _⟩ => ⟨S20x1x20x1, .f32⟩
  | .hbm, ⟨27, _⟩ => ⟨S1x20x1x10, .f32⟩
  | .hbm, ⟨28, _⟩ => ⟨S20x20x20x10, .f32⟩
  | .hbm, ⟨29, _⟩ => ⟨S20x20x20x10, .f32⟩
  | .hbm, ⟨30, _⟩ => ⟨S20x20x20x10, .f32⟩
  | .hbm, ⟨31, _⟩ => ⟨S400x200, .f32⟩
  | .hbm, ⟨32, _⟩ => ⟨S400x200, .bf16⟩
  | .hbm, ⟨33, _⟩ => ⟨S10x20, .f32⟩
  | .hbm, ⟨34, _⟩ => ⟨S20x1x20x1, .f32⟩
  | .hbm, ⟨35, _⟩ => ⟨S1x10x1x20, .f32⟩
  | .hbm, ⟨36, _⟩ => ⟨S20x10x20x20, .f32⟩
  | .hbm, ⟨37, _⟩ => ⟨S20x10x20x20, .f32⟩
  | .hbm, ⟨38, _⟩ => ⟨S20x10x20x20, .f32⟩
  | .hbm, ⟨39, _⟩ => ⟨S200x400, .f32⟩
  | .hbm, ⟨40, _⟩ => ⟨S200x400, .bf16⟩
  | .hbm, ⟨41, _⟩ => ⟨S512x400, .bf16⟩
  | .hbm, ⟨42, _⟩ => ⟨S65536x512, .f32⟩
  | .local _ .vmem, ⟨0, _⟩ => ⟨S512x400, .f32⟩
  | .local _ .vmem, ⟨1, _⟩ => ⟨S512x400, .f32⟩
  | .local _ .vmem, ⟨2, _⟩ => ⟨S512x400, .f32⟩
  | .local _ .vmem, ⟨3, _⟩ => ⟨S512x400, .f32⟩
  | .local _ .vmem, ⟨4, _⟩ => ⟨S400x400, .bf16⟩
  | .local _ .vmem, ⟨5, _⟩ => ⟨S400x200, .bf16⟩
  | .local _ .vmem, ⟨6, _⟩ => ⟨S200x400, .bf16⟩
  | .local _ .vmem, ⟨7, _⟩ => ⟨S512x400, .bf16⟩
  | .local _ .vmem, ⟨8, _⟩ => ⟨S1x512, .f32⟩
  | .local _ .vmem, ⟨9, _⟩ => ⟨S512x512, .f32⟩
  | .local _ .vmem, ⟨10, _⟩ => ⟨S512x512, .f32⟩
  | _, _ => ⟨S65536x20x20, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_call1_v0 : Ref sig .tc := ⟨.hbm, 26, rfl⟩
abbrev main_call1_v1 : Ref sig .tc := ⟨.hbm, 27, rfl⟩
abbrev main_call1_v2 : Ref sig .tc := ⟨.hbm, 28, rfl⟩
abbrev main_call1_v3 : Ref sig .tc := ⟨.hbm, 29, rfl⟩
abbrev main_call1_v4 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_call2_v0 : Ref sig .tc := ⟨.hbm, 34, rfl⟩
abbrev main_call2_v1 : Ref sig .tc := ⟨.hbm, 35, rfl⟩
abbrev main_call2_v2 : Ref sig .tc := ⟨.hbm, 36, rfl⟩
abbrev main_call2_v3 : Ref sig .tc := ⟨.hbm, 37, rfl⟩
abbrev main_call2_v4 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x400 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x400 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S400x400 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S400x200 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S200x400 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x400 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  shapeCasts_S65536x20x20_S65536x400 : S65536x20x20.ShapeCasts S65536x400
  shapeCasts_S512_S1x512 : S512.ShapeCasts S1x512
  bcast_S_S20x20 : S_.BroadcastsInDim S20x20 (![] : Fin 0 → Fin S20x20.rank)
  transposes_S20x20_S20x20_1_0 : S20x20.Transposes [1, 0] S20x20
  bcast_S20x20_S20x1x20x1_0_2 : S20x20.BroadcastsInDim S20x1x20x1 (![0, 2] : Fin 2 → Fin S20x1x20x1.rank)
  bcast_S20x20_S1x20x1x20_1_3 : S20x20.BroadcastsInDim S1x20x1x20 (![1, 3] : Fin 2 → Fin S1x20x1x20.rank)
  bcast_S20x1x20x1_S20x20x20x20_0_1_2_3 : S20x1x20x1.BroadcastsInDim S20x20x20x20 (![0, 1, 2, 3] : Fin 4 → Fin S20x20x20x20.rank)
  bcast_S1x20x1x20_S20x20x20x20_0_1_2_3 : S1x20x1x20.BroadcastsInDim S20x20x20x20 (![0, 1, 2, 3] : Fin 4 → Fin S20x20x20x20.rank)
  shapeCasts_S20x20x20x20_S400x400 : S20x20x20x20.ShapeCasts S400x400
  bitsLt_bf16_f32 : FTy.bits .bf16 < FTy.bits .f32
  transposes_S10x20_S20x10_1_0 : S10x20.Transposes [1, 0] S20x10
  bcast_S20x10_S1x20x1x10_1_3 : S20x10.BroadcastsInDim S1x20x1x10 (![1, 3] : Fin 2 → Fin S1x20x1x10.rank)
  bcast_S20x1x20x1_S20x20x20x10_0_1_2_3 : S20x1x20x1.BroadcastsInDim S20x20x20x10 (![0, 1, 2, 3] : Fin 4 → Fin S20x20x20x10.rank)
  bcast_S1x20x1x10_S20x20x20x10_0_1_2_3 : S1x20x1x10.BroadcastsInDim S20x20x20x10 (![0, 1, 2, 3] : Fin 4 → Fin S20x20x20x10.rank)
  shapeCasts_S20x20x20x10_S400x200 : S20x20x20x10.ShapeCasts S400x200
  transposes_S20x10_S10x20_1_0 : S20x10.Transposes [1, 0] S10x20
  bcast_S10x20_S1x10x1x20_1_3 : S10x20.BroadcastsInDim S1x10x1x20 (![1, 3] : Fin 2 → Fin S1x10x1x20.rank)
  bcast_S20x1x20x1_S20x10x20x20_0_1_2_3 : S20x1x20x1.BroadcastsInDim S20x10x20x20 (![0, 1, 2, 3] : Fin 4 → Fin S20x10x20x20.rank)
  bcast_S1x10x1x20_S20x10x20x20_0_1_2_3 : S1x10x1x20.BroadcastsInDim S20x10x20x20 (![0, 1, 2, 3] : Fin 4 → Fin S20x10x20x20.rank)
  shapeCasts_S20x10x20x20_S200x400 : S20x10x20x20.ShapeCasts S200x400
  inb_S512x400_S512x400_0_0 : ∀ a, (![0, 0] : Fin 2 → Nat) a + S512x400.size a ≤ S512x400.size a
  h_S512x400 : 0 < S512x400.numel
  shapeCasts_S512x400_S512x400 : S512x400.ShapeCasts S512x400
  shapeCasts_S512x400_S512x20x20 : S512x400.ShapeCasts S512x20x20
  inb_S400x400_S400x400_0_0 : ∀ a, (![0, 0] : Fin 2 → Nat) a + S400x400.size a ≤ S400x400.size a
  h_S400x400 : 0 < S400x400.numel
  shapeCasts_S400x400_S400x400 : S400x400.ShapeCasts S400x400
  inb_S400x200_S400x200_0_0 : ∀ a, (![0, 0] : Fin 2 → Nat) a + S400x200.size a ≤ S400x200.size a
  h_S400x200 : 0 < S400x200.numel
  shapeCasts_S400x200_S400x200 : S400x200.ShapeCasts S400x200
  inb_S200x400_S200x400_0_0 : ∀ a, (![0, 0] : Fin 2 → Nat) a + S200x400.size a ≤ S200x400.size a
  h_S200x400 : 0 < S200x400.numel
  shapeCasts_S200x400_S200x400 : S200x400.ShapeCasts S200x400
  inb_S1x512_S1x512_0_0 : ∀ a, (![0, 0] : Fin 2 → Nat) a + S1x512.size a ≤ S1x512.size a
  h_S1x512 : 0 < S1x512.numel
  shapeCasts_S1x512_S1x512 : S1x512.ShapeCasts S1x512
  shapeCasts_S512x20x20_S512x400 : S512x20x20.ShapeCasts S512x400
  shapeCasts_S512x200_S512x20x10 : S512x200.ShapeCasts S512x20x10
  shapeCasts_S512x20x10_S512x200 : S512x20x10.ShapeCasts S512x200
  broadcasts_S1x512_S512x512 : S1x512.Broadcasts S512x512
  reduces_S512x512_S512 : S512x512.Reduces [1] S512
  shapeCasts_S512_S512x1 : S512.ShapeCasts S512x1
  broadcasts_S512x1_S512x512 : S512x1.Broadcasts S512x512
  inb_S512x512_S512x512_0_0 : ∀ a, (![0, 0] : Fin 2 → Nat) a + S512x512.size a ≤ S512x512.size a
  h_S512x512 : 0 < S512x512.numel
  dot_S512x20x20_S512x20x20_S512x20x20_2_1_1_2_0_0_wf : DotDims.WF S512x20x20 S512x20x20 S512x20x20 [2] [1] [1] [2] [0] [0]
  dot_S512x400_S400x400_S512x400_1_0_0_1_n_n_wf : DotDims.WF S512x400 S400x400 S512x400 [1] [0] [0] [1] [] []
  dot_S512x400_S400x200_S512x200_1_0_0_1_n_n_wf : DotDims.WF S512x400 S400x200 S512x200 [1] [0] [0] [1] [] []
  dot_S512x20x20_S512x20x10_S512x20x10_2_1_1_2_0_0_wf : DotDims.WF S512x20x20 S512x20x10 S512x20x10 [2] [1] [1] [2] [0] [0]
  dot_S512x200_S200x400_S512x400_1_0_0_1_n_n_wf : DotDims.WF S512x200 S200x400 S512x400 [1] [0] [0] [1] [] []
  dot_S512x400_S512x400_S512x512_1_1_0_0_n_n_wf : DotDims.WF S512x400 S512x400 S512x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x400.size a ≤ S65536x400.size a
  hwx0_0 : ∀ i : grid0.Coords, EltTy.bits .f32 = 32 ∨ (Rect.block (s := S65536x400) S512x400.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x400.size a ≤ S65536x400.size a
  hwx0_1 : ∀ i : grid0.Coords, EltTy.bits .f32 = 32 ∨ (Rect.block (s := S65536x400) S512x400.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S400x400.size a ≤ S400x400.size a
  hwx0_2 : ∀ i : grid0.Coords, EltTy.bits .bf16 = 32 ∨ (Rect.block (s := S400x400) S400x400.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S400x200.size a ≤ S400x200.size a
  hwx0_3 : ∀ i : grid0.Coords, EltTy.bits .bf16 = 32 ∨ (Rect.block (s := S400x200) S400x200.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S200x400.size a ≤ S200x400.size a
  hwx0_4 : ∀ i : grid0.Coords, EltTy.bits .bf16 = 32 ∨ (Rect.block (s := S200x400) S200x400.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x400.size a ≤ S512x400.size a
  hwx0_5 : ∀ i : grid0.Coords, EltTy.bits .bf16 = 32 ∨ (Rect.block (s := S512x400) S512x400.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x512.size a ≤ S1x512.size a
  hwx0_6 : ∀ i : grid0.Coords, EltTy.bits .f32 = 32 ∨ (Rect.block (s := S1x512) S1x512.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S512x512.size a ≤ S65536x512.size a
  hwx0_7 : ∀ i : grid0.Coords, EltTy.bits .f32 = 32 ∨ (Rect.block (s := S65536x512) S512x512.size (cc0_transform_7 i) (hinb0_7 i)).WholeWords (EltTy.packing .f32)

variable [Facts₀]

def dot_S512x20x20_S512x20x20_S512x20x20_2_1_1_2_0_0 : DotDims S512x20x20 S512x20x20 S512x20x20 where
  lhsContracting := [2]
  rhsContracting := [1]
  lhsNonContracting := [1]
  rhsNonContracting := [2]
  lhsBatch := [0]
  rhsBatch := [0]
  wf := dot_S512x20x20_S512x20x20_S512x20x20_2_1_1_2_0_0_wf
def dot_S512x400_S400x400_S512x400_1_0_0_1_n_n : DotDims S512x400 S400x400 S512x400 where
  lhsContracting := [1]
  rhsContracting := [0]
  lhsNonContracting := [0]
  rhsNonContracting := [1]
  lhsBatch := []
  rhsBatch := []
  wf := dot_S512x400_S400x400_S512x400_1_0_0_1_n_n_wf
def dot_S512x400_S400x200_S512x200_1_0_0_1_n_n : DotDims S512x400 S400x200 S512x200 where
  lhsContracting := [1]
  rhsContracting := [0]
  lhsNonContracting := [0]
  rhsNonContracting := [1]
  lhsBatch := []
  rhsBatch := []
  wf := dot_S512x400_S400x200_S512x200_1_0_0_1_n_n_wf
def dot_S512x20x20_S512x20x10_S512x20x10_2_1_1_2_0_0 : DotDims S512x20x20 S512x20x10 S512x20x10 where
  lhsContracting := [2]
  rhsContracting := [1]
  lhsNonContracting := [1]
  rhsNonContracting := [2]
  lhsBatch := [0]
  rhsBatch := [0]
  wf := dot_S512x20x20_S512x20x10_S512x20x10_2_1_1_2_0_0_wf
def dot_S512x200_S200x400_S512x400_1_0_0_1_n_n : DotDims S512x200 S200x400 S512x400 where
  lhsContracting := [1]
  rhsContracting := [0]
  lhsNonContracting := [0]
  rhsNonContracting := [1]
  lhsBatch := []
  rhsBatch := []
  wf := dot_S512x200_S200x400_S512x400_1_0_0_1_n_n_wf
def dot_S512x400_S512x400_S512x512_1_1_0_0_n_n : DotDims S512x400 S512x400 S512x512 where
  lhsContracting := [1]
  rhsContracting := [1]
  lhsNonContracting := [0]
  rhsNonContracting := [0]
  lhsBatch := []
  rhsBatch := []
  wf := dot_S512x400_S512x400_S512x512_1_1_0_0_n_n_wf

abbrev win0_0 : Pipeline.Window sig grid0 :=
  Pipeline.Window.ofSpec (Memref.whole main_v0) S512x400.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x400.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v11) S400x400.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S400x200.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v17) S200x400.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v18) S512x400.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S1x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v19) S512x512.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S65536x20x20 : Shape := ⟨3, ![65536, 20, 20]⟩
abbrev S20x20 : Shape := ⟨2, ![20, 20]⟩
abbrev S10x20 : Shape := ⟨2, ![10, 20]⟩
abbrev S20x10 : Shape := ⟨2, ![20, 10]⟩
abbrev S512x400 : Shape := ⟨2, ![512, 400]⟩
abbrev S512 : Shape := ⟨1, ![512]⟩
abbrev S_ : Shape := ⟨0, ![]⟩
abbrev S65536x20x10 : Shape := ⟨3, ![65536, 20, 10]⟩
abbrev S65536x400 : Shape := ⟨2, ![65536, 400]⟩
abbrev S65536x512 : Shape := ⟨2, ![65536, 512]⟩
abbrev S1x512 : Shape := ⟨2, ![1, 512]⟩
abbrev S65536 : Shape := ⟨1, ![65536]⟩
abbrev S65536x1 : Shape := ⟨2, ![65536, 1]⟩

abbrev nBuf : Space → Nat
  | .hbm => 37
  | .vmem => 0
  | .smem => 0
  | _ => 0

abbrev bufTy : (tb : Table) → Fin (tcTables nBuf tb) → BufTy
  | .hbm, ⟨0, _⟩ => ⟨S65536x20x20, .f32⟩
  | .hbm, ⟨1, _⟩ => ⟨S65536x20x20, .f32⟩
  | .hbm, ⟨2, _⟩ => ⟨S20x20, .f32⟩
  | .hbm, ⟨3, _⟩ => ⟨S10x20, .f32⟩
  | .hbm, ⟨4, _⟩ => ⟨S20x10, .f32⟩
  | .hbm, ⟨5, _⟩ => ⟨S512x400, .f32⟩
  | .hbm, ⟨6, _⟩ => ⟨S512, .f32⟩
  | .hbm, ⟨7, _⟩ => ⟨S65536x20x20, .f32⟩
  | .hbm, ⟨8, _⟩ => ⟨S65536x20x20, .f32⟩
  | .hbm, ⟨9, _⟩ => ⟨S_, .f32⟩
  | .hbm, ⟨10, _⟩ => ⟨S65536x20x20, .f32⟩
  | .hbm, ⟨11, _⟩ => ⟨S65536x20x20, .f32⟩
  | .hbm, ⟨12, _⟩ => ⟨S65536x20x20, .f32⟩
  | .hbm, ⟨13, _⟩ => ⟨S65536x20x10, .f32⟩
  | .hbm, ⟨14, _⟩ => ⟨S_, .f32⟩
  | .hbm, ⟨15, _⟩ => ⟨S65536x20x10, .f32⟩
  | .hbm, ⟨16, _⟩ => ⟨S65536x20x10, .f32⟩
  | .hbm, ⟨17, _⟩ => ⟨S65536x20x10, .f32⟩
  | .hbm, ⟨18, _⟩ => ⟨S65536x20x20, .f32⟩
  | .hbm, ⟨19, _⟩ => ⟨S_, .f32⟩
  | .hbm, ⟨20, _⟩ => ⟨S65536x20x20, .f32⟩
  | .hbm, ⟨21, _⟩ => ⟨S65536x20x20, .f32⟩
  | .hbm, ⟨22, _⟩ => ⟨S65536x400, .f32⟩
  | .hbm, ⟨23, _⟩ => ⟨S65536x512, .f32⟩
  | .hbm, ⟨24, _⟩ => ⟨S1x512, .f32⟩
  | .hbm, ⟨25, _⟩ => ⟨S65536x512, .f32⟩
  | .hbm, ⟨26, _⟩ => ⟨S65536x512, .f32⟩
  | .hbm, ⟨27, _⟩ => ⟨S65536x512, .f32⟩
  | .hbm, ⟨28, _⟩ => ⟨S_, .f32⟩
  | .hbm, ⟨29, _⟩ => ⟨S65536, .f32⟩
  | .hbm, ⟨30, _⟩ => ⟨S65536x1, .f32⟩
  | .hbm, ⟨31, _⟩ => ⟨S65536x1, .f32⟩
  | .hbm, ⟨32, _⟩ => ⟨S_, .f32⟩
  | .hbm, ⟨33, _⟩ => ⟨S65536x1, .f32⟩
  | .hbm, ⟨34, _⟩ => ⟨S65536x1, .f32⟩
  | .hbm, ⟨35, _⟩ => ⟨S65536x512, .f32⟩
  | .hbm, ⟨36, _⟩ => ⟨S65536x512, .f32⟩
  | _, _ => ⟨S65536x20x20, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_call0_cst : Ref sig .tc := ⟨.hbm, 9, rfl⟩
abbrev main_call0_v0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_call1_cst : Ref sig .tc := ⟨.hbm, 14, rfl⟩
abbrev main_call1_v0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_call2_cst : Ref sig .tc := ⟨.hbm, 19, rfl⟩
abbrev main_call2_v0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_0 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩

abbrev nD : Nat := 1
abbrev τ : Topo := Topo.v7x

variable {F : FTy → Type} [FloatOps F]

class Facts₀ : Prop where
  bcast_S_S65536x20x20 : S_.BroadcastsInDim S65536x20x20 (![] : Fin 0 → Fin S65536x20x20.rank)
  bcast_S_S65536x20x10 : S_.BroadcastsInDim S65536x20x10 (![] : Fin 0 → Fin S65536x20x10.rank)
  shapeCasts_S65536x20x20_S65536x400 : S65536x20x20.ShapeCasts S65536x400
  bcast_S512_S1x512_1 : S512.BroadcastsInDim S1x512 (![1] : Fin 1 → Fin S1x512.rank)
  bcast_S1x512_S65536x512_0_1 : S1x512.BroadcastsInDim S65536x512 (![0, 1] : Fin 2 → Fin S65536x512.rank)
  reducesTo_S65536x512_S65536_d1 : S65536x512.ReducesTo [1] S65536
  h_S_ : 0 < S_.numel
  bcast_S65536_S65536x1_0 : S65536.BroadcastsInDim S65536x1 (![0] : Fin 1 → Fin S65536x1.rank)
  bcast_S_S65536x1 : S_.BroadcastsInDim S65536x1 (![] : Fin 0 → Fin S65536x1.rank)
  bcast_S65536x1_S65536x512_0_1 : S65536x1.BroadcastsInDim S65536x512 (![0, 1] : Fin 2 → Fin S65536x512.rank)
  dot_S65536x20x20_S65536x20x20_S65536x20x20_2_1_1_2_0_0_wf : DotDims.WF S65536x20x20 S65536x20x20 S65536x20x20 [2] [1] [1] [2] [0] [0]
  dot_S65536x20x20_S20x20_S65536x20x20_2_1_01_0_n_n_wf : DotDims.WF S65536x20x20 S20x20 S65536x20x20 [2] [1] [0, 1] [0] [] []
  dot_S65536x20x20_S10x20_S65536x20x10_2_1_01_0_n_n_wf : DotDims.WF S65536x20x20 S10x20 S65536x20x10 [2] [1] [0, 1] [0] [] []
  dot_S65536x20x20_S65536x20x10_S65536x20x10_2_1_1_2_0_0_wf : DotDims.WF S65536x20x20 S65536x20x10 S65536x20x10 [2] [1] [1] [2] [0] [0]
  dot_S65536x20x10_S20x10_S65536x20x20_2_1_01_0_n_n_wf : DotDims.WF S65536x20x10 S20x10 S65536x20x20 [2] [1] [0, 1] [0] [] []
  dot_S65536x400_S512x400_S65536x512_1_1_0_0_n_n_wf : DotDims.WF S65536x400 S512x400 S65536x512 [1] [1] [0] [0] [] []

variable [Facts₀]

def dot_S65536x20x20_S65536x20x20_S65536x20x20_2_1_1_2_0_0 : DotDims S65536x20x20 S65536x20x20 S65536x20x20 where
  lhsContracting := [2]
  rhsContracting := [1]
  lhsNonContracting := [1]
  rhsNonContracting := [2]
  lhsBatch := [0]
  rhsBatch := [0]
  wf := dot_S65536x20x20_S65536x20x20_S65536x20x20_2_1_1_2_0_0_wf
def dot_S65536x20x20_S20x20_S65536x20x20_2_1_01_0_n_n : DotDims S65536x20x20 S20x20 S65536x20x20 where
  lhsContracting := [2]
  rhsContracting := [1]
  lhsNonContracting := [0, 1]
  rhsNonContracting := [0]
  lhsBatch := []
  rhsBatch := []
  wf := dot_S65536x20x20_S20x20_S65536x20x20_2_1_01_0_n_n_wf
def dot_S65536x20x20_S10x20_S65536x20x10_2_1_01_0_n_n : DotDims S65536x20x20 S10x20 S65536x20x10 where
  lhsContracting := [2]
  rhsContracting := [1]
  lhsNonContracting := [0, 1]
  rhsNonContracting := [0]
  lhsBatch := []
  rhsBatch := []
  wf := dot_S65536x20x20_S10x20_S65536x20x10_2_1_01_0_n_n_wf
def dot_S65536x20x20_S65536x20x10_S65536x20x10_2_1_1_2_0_0 : DotDims S65536x20x20 S65536x20x10 S65536x20x10 where
  lhsContracting := [2]
  rhsContracting := [1]
  lhsNonContracting := [1]
  rhsNonContracting := [2]
  lhsBatch := [0]
  rhsBatch := [0]
  wf := dot_S65536x20x20_S65536x20x10_S65536x20x10_2_1_1_2_0_0_wf
def dot_S65536x20x10_S20x10_S65536x20x20_2_1_01_0_n_n : DotDims S65536x20x10 S20x10 S65536x20x20 where
  lhsContracting := [2]
  rhsContracting := [1]
  lhsNonContracting := [0, 1]
  rhsNonContracting := [0]
  lhsBatch := []
  rhsBatch := []
  wf := dot_S65536x20x10_S20x10_S65536x20x20_2_1_01_0_n_n_wf
def dot_S65536x400_S512x400_S65536x512_1_1_0_0_n_n : DotDims S65536x400 S512x400 S65536x512 where
  lhsContracting := [1]
  rhsContracting := [1]
  lhsNonContracting := [0]
  rhsNonContracting := [0]
  lhsBatch := []
  rhsBatch := []
  wf := dot_S65536x400_S512x400_S65536x512_1_1_0_0_n_n_wf

class Facts : Prop extends Facts₀ where

variable [Facts]
-- ==== Proof.BodyOps.lean ====
/-
  The body's operations that are not pointwise, each read at an index on the extended reals: the batched and the
  plain matrix products into a zero accumulator as sums over the contracted index, the shape casts between a flat
  row of `N*D` entries and an `N x D` table as `f = n*D + d`, the row sum, and the two broadcasts of the tail.
-/
import proofs.«407113_j6193342840985_3_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.BodyOps

open Cert.KernelIdeal Cert.KernelIdeal.Gen Idealize.ShloMosaic Idealize.ShloMosaic.ValueIdx

/-! ## Matrix products into the zero accumulator -/

/-! ### The batched product of two stacks of 20 x 20 tables

The operand indices at an output index and a contraction index, one axis at a time: the batch axis and the free axis
carry the output index's coordinate, the contracted axis carries the contraction index's one coordinate. -/

theorem lhs_mix20_0 (i : S512x20x20.Idx) (q : dot_S512x20x20_S512x20x20_S512x20x20_2_1_1_2_0_0.contr.Idx) :
    (dot_S512x20x20_S512x20x20_S512x20x20_2_1_1_2_0_0.lhsIdx i q 0).val = (i 0).val := by
  unfold DotDims.lhsIdx
  rw [dif_pos (show (0 : Fin S512x20x20.rank) ∈ dot_S512x20x20_S512x20x20_S512x20x20_2_1_1_2_0_0.lhsBatch by decide)]
  rfl
theorem lhs_mix20_1 (i : S512x20x20.Idx) (q : dot_S512x20x20_S512x20x20_S512x20x20_2_1_1_2_0_0.contr.Idx) :
    (dot_S512x20x20_S512x20x20_S512x20x20_2_1_1_2_0_0.lhsIdx i q 1).val = (i 1).val := by
  unfold DotDims.lhsIdx
  rw [dif_neg (show ¬(1 : Fin S512x20x20.rank) ∈ dot_S512x20x20_S512x20x20_S512x20x20_2_1_1_2_0_0.lhsBatch by decide), dif_pos (show (1 : Fin S512x20x20.rank) ∈ dot_S512x20x20_S512x20x20_S512x20x20_2_1_1_2_0_0.lhsNonContracting by decide)]
  rfl
theorem lhs_mix20_2 (i : S512x20x20.Idx) (q : dot_S512x20x20_S512x20x20_S512x20x20_2_1_1_2_0_0.contr.Idx) :
    (dot_S512x20x20_S512x20x20_S512x20x20_2_1_1_2_0_0.lhsIdx i q 2).val = (q ⟨0, by decide⟩).val :=
  dot_S512x20x20_S512x20x20_S512x20x20_2_1_1_2_0_0.lhsIdx_val_of_single rfl i q
theorem rhs_mix20_0 (i : S512x20x20.Idx) (q : dot_S512x20x20_S512x20x20_S512x20x20_2_1_1_2_0_0.contr.Idx) :
    (dot_S512x20x20_S512x20x20_S512x20x20_2_1_1_2_0_0.rhsIdx i q 0).val = (i 0).val := by
  unfold DotDims.rhsIdx
  rw [dif_pos (show (0 : Fin S512x20x20.rank) ∈ dot_S512x20x20_S512x20x20_S512x20x20_2_1_1_2_0_0.rhsBatch by decide)]
  rfl
theorem rhs_mix20_1 (i : S512x20x20.Idx) (q : dot_S512x20x20_S512x20x20_S512x20x20_2_1_1_2_0_0.contr.Idx) :
    (dot_S512x20x20_S512x20x20_S512x20x20_2_1_1_2_0_0.rhsIdx i q 1).val = (q ⟨0, by decide⟩).val :=
  dot_S512x20x20_S512x20x20_S512x20x20_2_1_1_2_0_0.rhsIdx_val_of_single rfl i q
theorem rhs_mix20_2 (i : S512x20x20.Idx) (q : dot_S512x20x20_S512x20x20_S512x20x20_2_1_1_2_0_0.contr.Idx) :
    (dot_S512x20x20_S512x20x20_S512x20x20_2_1_1_2_0_0.rhsIdx i q 2).val = (i 2).val := by
  unfold DotDims.rhsIdx
  rw [dif_neg (show ¬(2 : Fin S512x20x20.rank) ∈ dot_S512x20x20_S512x20x20_S512x20x20_2_1_1_2_0_0.rhsBatch by decide), dif_pos (show (2 : Fin S512x20x20.rank) ∈ dot_S512x20x20_S512x20x20_S512x20x20_2_1_1_2_0_0.rhsNonContracting by decide)]
  rfl

theorem mix20 (A H : FVec Ideal S512x20x20 .bf16) (r : Fin 512) (n d : Fin 20) :
    matmul dot_S512x20x20_S512x20x20_S512x20x20_2_1_1_2_0_0 none A H (constant (F := Ideal) S512x20x20 .f32 0x00000000#32) (ix3 r n d)
      = ∑ o : Fin 20, A (ix3 r n o) * H (ix3 r o d) := by
  simp only [matmul]
  rw [Ideal.matmul_constant_zero_apply, ← Equiv.sum_comp (ValueIdx.contrEquiv1 dot_S512x20x20_S512x20x20_S512x20x20_2_1_1_2_0_0 20 rfl rfl).symm]
  refine Finset.sum_congr rfl fun k _ => ?_
  have hk := ValueIdx.contrEquiv1_symm_val dot_S512x20x20_S512x20x20_S512x20x20_2_1_1_2_0_0 20 rfl rfl k
  have el : dot_S512x20x20_S512x20x20_S512x20x20_2_1_1_2_0_0.lhsIdx (ix3 r n d) ((ValueIdx.contrEquiv1 dot_S512x20x20_S512x20x20_S512x20x20_2_1_1_2_0_0 20 rfl rfl).symm k) = ix3 r n k := funext fun a => Fin.ext (by
    match a with
    | ⟨0, _⟩ => exact lhs_mix20_0 _ _
    | ⟨1, _⟩ => exact lhs_mix20_1 _ _
    | ⟨2, _⟩ => exact (lhs_mix20_2 _ _).trans hk)
  have er : dot_S512x20x20_S512x20x20_S512x20x20_2_1_1_2_0_0.rhsIdx (ix3 r n d) ((ValueIdx.contrEquiv1 dot_S512x20x20_S512x20x20_S512x20x20_2_1_1_2_0_0 20 rfl rfl).symm k) = ix3 r k d := funext fun a => Fin.ext (by
    match a with
    | ⟨0, _⟩ => exact rhs_mix20_0 _ _
    | ⟨1, _⟩ => exact (rhs_mix20_1 _ _).trans hk
    | ⟨2, _⟩ => exact rhs_mix20_2 _ _)
  rw [el, er]

/-! ### The batched product of a stack of 20 x 20 tables with a stack of 20 x 10 tables -/

theorem lhs_mix10_0 (i : S512x20x10.Idx) (q : dot_S512x20x20_S512x20x10_S512x20x10_2_1_1_2_0_0.contr.Idx) :
    (dot_S512x20x20_S512x20x10_S512x20x10_2_1_1_2_0_0.lhsIdx i q 0).val = (i 0).val := by
  unfold DotDims.lhsIdx
  rw [dif_pos (show (0 : Fin S512x20x20.rank) ∈ dot_S512x20x20_S512x20x10_S512x20x10_2_1_1_2_0_0.lhsBatch by decide)]
  rfl
theorem lhs_mix10_1 (i : S512x20x10.Idx) (q : dot_S512x20x20_S512x20x10_S512x20x10_2_1_1_2_0_0.contr.Idx) :
    (dot_S512x20x20_S512x20x10_S512x20x10_2_1_1_2_0_0.lhsIdx i q 1).val = (i 1).val := by
  unfold DotDims.lhsIdx
  rw [dif_neg (show ¬(1 : Fin S512x20x20.rank) ∈ dot_S512x20x20_S512x20x10_S512x20x10_2_1_1_2_0_0.lhsBatch by decide), dif_pos (show (1 : Fin S512x20x20.rank) ∈ dot_S512x20x20_S512x20x10_S512x20x10_2_1_1_2_0_0.lhsNonContracting by decide)]
  rfl
theorem lhs_mix10_2 (i : S512x20x10.Idx) (q : dot_S512x20x20_S512x20x10_S512x20x10_2_1_1_2_0_0.contr.Idx) :
    (dot_S512x20x20_S512x20x10_S512x20x10_2_1_1_2_0_0.lhsIdx i q 2).val = (q ⟨0, by decide⟩).val :=
  dot_S512x20x20_S512x20x10_S512x20x10_2_1_1_2_0_0.lhsIdx_val_of_single rfl i q
theorem rhs_mix10_0 (i : S512x20x10.Idx) (q : dot_S512x20x20_S512x20x10_S512x20x10_2_1_1_2_0_0.contr.Idx) :
    (dot_S512x20x20_S512x20x10_S512x20x10_2_1_1_2_0_0.rhsIdx i q 0).val = (i 0).val := by
  unfold DotDims.rhsIdx
  rw [dif_pos (show (0 : Fin S512x20x10.rank) ∈ dot_S512x20x20_S512x20x10_S512x20x10_2_1_1_2_0_0.rhsBatch by decide)]
  rfl
theorem rhs_mix10_1 (i : S512x20x10.Idx) (q : dot_S512x20x20_S512x20x10_S512x20x10_2_1_1_2_0_0.contr.Idx) :
    (dot_S512x20x20_S512x20x10_S512x20x10_2_1_1_2_0_0.rhsIdx i q 1).val = (q ⟨0, by decide⟩).val :=
  dot_S512x20x20_S512x20x10_S512x20x10_2_1_1_2_0_0.rhsIdx_val_of_single rfl i q
theorem rhs_mix10_2 (i : S512x20x10.Idx) (q : dot_S512x20x20_S512x20x10_S512x20x10_2_1_1_2_0_0.contr.Idx) :
    (dot_S512x20x20_S512x20x10_S512x20x10_2_1_1_2_0_0.rhsIdx i q 2).val = (i 2).val := by
  unfold DotDims.rhsIdx
  rw [dif_neg (show ¬(2 : Fin S512x20x10.rank) ∈ dot_S512x20x20_S512x20x10_S512x20x10_2_1_1_2_0_0.rhsBatch by decide), dif_pos (show (2 : Fin S512x20x10.rank) ∈ dot_S512x20x20_S512x20x10_S512x20x10_2_1_1_2_0_0.rhsNonContracting by decide)]
  rfl

theorem mix10 (A : FVec Ideal S512x20x20 .bf16) (H : FVec Ideal S512x20x10 .bf16) (r : Fin 512) (n : Fin 20) (d : Fin 10) :
    matmul dot_S512x20x20_S512x20x10_S512x20x10_2_1_1_2_0_0 none A H (constant (F := Ideal) S512x20x10 .f32 0x00000000#32) (ix3 r n d)
      = ∑ o : Fin 20, A (ix3 r n o) * H (ix3 r o d) := by
  simp only [matmul]
  rw [Ideal.matmul_constant_zero_apply, ← Equiv.sum_comp (ValueIdx.contrEquiv1 dot_S512x20x20_S512x20x10_S512x20x10_2_1_1_2_0_0 20 rfl rfl).symm]
  refine Finset.sum_congr rfl fun k _ => ?_
  have hk := ValueIdx.contrEquiv1_symm_val dot_S512x20x20_S512x20x10_S512x20x10_2_1_1_2_0_0 20 rfl rfl k
  have el : dot_S512x20x20_S512x20x10_S512x20x10_2_1_1_2_0_0.lhsIdx (ix3 r n d) ((ValueIdx.contrEquiv1 dot_S512x20x20_S512x20x10_S512x20x10_2_1_1_2_0_0 20 rfl rfl).symm k) = ix3 r n k := funext fun a => Fin.ext (by
    match a with
    | ⟨0, _⟩ => exact lhs_mix10_0 _ _
    | ⟨1, _⟩ => exact lhs_mix10_1 _ _
    | ⟨2, _⟩ => exact (lhs_mix10_2 _ _).trans hk)
  have er : dot_S512x20x20_S512x20x10_S512x20x10_2_1_1_2_0_0.rhsIdx (ix3 r n d) ((ValueIdx.contrEquiv1 dot_S512x20x20_S512x20x10_S512x20x10_2_1_1_2_0_0 20 rfl rfl).symm k) = ix3 r k d := funext fun a => Fin.ext (by
    match a with
    | ⟨0, _⟩ => exact rhs_mix10_0 _ _
    | ⟨1, _⟩ => exact (rhs_mix10_1 _ _).trans hk
    | ⟨2, _⟩ => exact rhs_mix10_2 _ _)
  rw [el, er]

/-! ### Rows of 400 entries times a 400 x 400 table -/

theorem lhs_mm400x400_0 (i : S512x400.Idx) (q : dot_S512x400_S400x400_S512x400_1_0_0_1_n_n.contr.Idx) :
    (dot_S512x400_S400x400_S512x400_1_0_0_1_n_n.lhsIdx i q 0).val = (i 0).val := by
  unfold DotDims.lhsIdx
  rw [dif_neg (show ¬(0 : Fin S512x400.rank) ∈ dot_S512x400_S400x400_S512x400_1_0_0_1_n_n.lhsBatch by decide), dif_pos (show (0 : Fin S512x400.rank) ∈ dot_S512x400_S400x400_S512x400_1_0_0_1_n_n.lhsNonContracting by decide)]
  rfl
theorem lhs_mm400x400_1 (i : S512x400.Idx) (q : dot_S512x400_S400x400_S512x400_1_0_0_1_n_n.contr.Idx) :
    (dot_S512x400_S400x400_S512x400_1_0_0_1_n_n.lhsIdx i q 1).val = (q ⟨0, by decide⟩).val :=
  dot_S512x400_S400x400_S512x400_1_0_0_1_n_n.lhsIdx_val_of_single rfl i q
theorem rhs_mm400x400_0 (i : S512x400.Idx) (q : dot_S512x400_S400x400_S512x400_1_0_0_1_n_n.contr.Idx) :
    (dot_S512x400_S400x400_S512x400_1_0_0_1_n_n.rhsIdx i q 0).val = (q ⟨0, by decide⟩).val :=
  dot_S512x400_S400x400_S512x400_1_0_0_1_n_n.rhsIdx_val_of_single rfl i q
theorem rhs_mm400x400_1 (i : S512x400.Idx) (q : dot_S512x400_S400x400_S512x400_1_0_0_1_n_n.contr.Idx) :
    (dot_S512x400_S400x400_S512x400_1_0_0_1_n_n.rhsIdx i q 1).val = (i 1).val := by
  unfold DotDims.rhsIdx
  rw [dif_neg (show ¬(1 : Fin S400x400.rank) ∈ dot_S512x400_S400x400_S512x400_1_0_0_1_n_n.rhsBatch by decide), dif_pos (show (1 : Fin S400x400.rank) ∈ dot_S512x400_S400x400_S512x400_1_0_0_1_n_n.rhsNonContracting by decide)]
  rfl

theorem mm400x400 (L : FVec Ideal S512x400 .bf16) (R : FVec Ideal S400x400 .bf16) (r : Fin 512) (g : Fin 400) :
    matmul dot_S512x400_S400x400_S512x400_1_0_0_1_n_n none L R (constant (F := Ideal) S512x400 .f32 0x00000000#32) (ix2 r g)
      = ∑ k : Fin 400, L (ix2 r k) * R (ix2 k g) := by
  simp only [matmul]
  rw [Ideal.matmul_constant_zero_apply, ← Equiv.sum_comp (ValueIdx.contrEquiv1 dot_S512x400_S400x400_S512x400_1_0_0_1_n_n 400 rfl rfl).symm]
  refine Finset.sum_congr rfl fun k _ => ?_
  have hk := ValueIdx.contrEquiv1_symm_val dot_S512x400_S400x400_S512x400_1_0_0_1_n_n 400 rfl rfl k
  have el : dot_S512x400_S400x400_S512x400_1_0_0_1_n_n.lhsIdx (ix2 r g) ((ValueIdx.contrEquiv1 dot_S512x400_S400x400_S512x400_1_0_0_1_n_n 400 rfl rfl).symm k) = ix2 r k := funext fun a => Fin.ext (by
    match a with
    | ⟨0, _⟩ => exact lhs_mm400x400_0 _ _
    | ⟨1, _⟩ => exact (lhs_mm400x400_1 _ _).trans hk)
  have er : dot_S512x400_S400x400_S512x400_1_0_0_1_n_n.rhsIdx (ix2 r g) ((ValueIdx.contrEquiv1 dot_S512x400_S400x400_S512x400_1_0_0_1_n_n 400 rfl rfl).symm k) = ix2 k g := funext fun a => Fin.ext (by
    match a with
    | ⟨0, _⟩ => exact (rhs_mm400x400_0 _ _).trans hk
    | ⟨1, _⟩ => exact rhs_mm400x400_1 _ _)
  rw [el, er]

/-! ### Rows of 400 entries times a 400 x 200 table -/

theorem lhs_mm400x200_0 (i : S512x200.Idx) (q : dot_S512x400_S400x200_S512x200_1_0_0_1_n_n.contr.Idx) :
    (dot_S512x400_S400x200_S512x200_1_0_0_1_n_n.lhsIdx i q 0).val = (i 0).val := by
  unfold DotDims.lhsIdx
  rw [dif_neg (show ¬(0 : Fin S512x400.rank) ∈ dot_S512x400_S400x200_S512x200_1_0_0_1_n_n.lhsBatch by decide), dif_pos (show (0 : Fin S512x400.rank) ∈ dot_S512x400_S400x200_S512x200_1_0_0_1_n_n.lhsNonContracting by decide)]
  rfl
theorem lhs_mm400x200_1 (i : S512x200.Idx) (q : dot_S512x400_S400x200_S512x200_1_0_0_1_n_n.contr.Idx) :
    (dot_S512x400_S400x200_S512x200_1_0_0_1_n_n.lhsIdx i q 1).val = (q ⟨0, by decide⟩).val :=
  dot_S512x400_S400x200_S512x200_1_0_0_1_n_n.lhsIdx_val_of_single rfl i q
theorem rhs_mm400x200_0 (i : S512x200.Idx) (q : dot_S512x400_S400x200_S512x200_1_0_0_1_n_n.contr.Idx) :
    (dot_S512x400_S400x200_S512x200_1_0_0_1_n_n.rhsIdx i q 0).val = (q ⟨0, by decide⟩).val :=
  dot_S512x400_S400x200_S512x200_1_0_0_1_n_n.rhsIdx_val_of_single rfl i q
theorem rhs_mm400x200_1 (i : S512x200.Idx) (q : dot_S512x400_S400x200_S512x200_1_0_0_1_n_n.contr.Idx) :
    (dot_S512x400_S400x200_S512x200_1_0_0_1_n_n.rhsIdx i q 1).val = (i 1).val := by
  unfold DotDims.rhsIdx
  rw [dif_neg (show ¬(1 : Fin S400x200.rank) ∈ dot_S512x400_S400x200_S512x200_1_0_0_1_n_n.rhsBatch by decide), dif_pos (show (1 : Fin S400x200.rank) ∈ dot_S512x400_S400x200_S512x200_1_0_0_1_n_n.rhsNonContracting by decide)]
  rfl

theorem mm400x200 (L : FVec Ideal S512x400 .bf16) (R : FVec Ideal S400x200 .bf16) (r : Fin 512) (g : Fin 200) :
    matmul dot_S512x400_S400x200_S512x200_1_0_0_1_n_n none L R (constant (F := Ideal) S512x200 .f32 0x00000000#32) (ix2 r g)
      = ∑ k : Fin 400, L (ix2 r k) * R (ix2 k g) := by
  simp only [matmul]
  rw [Ideal.matmul_constant_zero_apply, ← Equiv.sum_comp (ValueIdx.contrEquiv1 dot_S512x400_S400x200_S512x200_1_0_0_1_n_n 400 rfl rfl).symm]
  refine Finset.sum_congr rfl fun k _ => ?_
  have hk := ValueIdx.contrEquiv1_symm_val dot_S512x400_S400x200_S512x200_1_0_0_1_n_n 400 rfl rfl k
  have el : dot_S512x400_S400x200_S512x200_1_0_0_1_n_n.lhsIdx (ix2 r g) ((ValueIdx.contrEquiv1 dot_S512x400_S400x200_S512x200_1_0_0_1_n_n 400 rfl rfl).symm k) = ix2 r k := funext fun a => Fin.ext (by
    match a with
    | ⟨0, _⟩ => exact lhs_mm400x200_0 _ _
    | ⟨1, _⟩ => exact (lhs_mm400x200_1 _ _).trans hk)
  have er : dot_S512x400_S400x200_S512x200_1_0_0_1_n_n.rhsIdx (ix2 r g) ((ValueIdx.contrEquiv1 dot_S512x400_S400x200_S512x200_1_0_0_1_n_n 400 rfl rfl).symm k) = ix2 k g := funext fun a => Fin.ext (by
    match a with
    | ⟨0, _⟩ => exact (rhs_mm400x200_0 _ _).trans hk
    | ⟨1, _⟩ => exact rhs_mm400x200_1 _ _)
  rw [el, er]

/-! ### Rows of 200 entries times a 200 x 400 table -/

theorem lhs_mm200x400_0 (i : S512x400.Idx) (q : dot_S512x200_S200x400_S512x400_1_0_0_1_n_n.contr.Idx) :
    (dot_S512x200_S200x400_S512x400_1_0_0_1_n_n.lhsIdx i q 0).val = (i 0).val := by
  unfold DotDims.lhsIdx
  rw [dif_neg (show ¬(0 : Fin S512x200.rank) ∈ dot_S512x200_S200x400_S512x400_1_0_0_1_n_n.lhsBatch by decide), dif_pos (show (0 : Fin S512x200.rank) ∈ dot_S512x200_S200x400_S512x400_1_0_0_1_n_n.lhsNonContracting by decide)]
  rfl
theorem lhs_mm200x400_1 (i : S512x400.Idx) (q : dot_S512x200_S200x400_S512x400_1_0_0_1_n_n.contr.Idx) :
    (dot_S512x200_S200x400_S512x400_1_0_0_1_n_n.lhsIdx i q 1).val = (q ⟨0, by decide⟩).val :=
  dot_S512x200_S200x400_S512x400_1_0_0_1_n_n.lhsIdx_val_of_single rfl i q
theorem rhs_mm200x400_0 (i : S512x400.Idx) (q : dot_S512x200_S200x400_S512x400_1_0_0_1_n_n.contr.Idx) :
    (dot_S512x200_S200x400_S512x400_1_0_0_1_n_n.rhsIdx i q 0).val = (q ⟨0, by decide⟩).val :=
  dot_S512x200_S200x400_S512x400_1_0_0_1_n_n.rhsIdx_val_of_single rfl i q
theorem rhs_mm200x400_1 (i : S512x400.Idx) (q : dot_S512x200_S200x400_S512x400_1_0_0_1_n_n.contr.Idx) :
    (dot_S512x200_S200x400_S512x400_1_0_0_1_n_n.rhsIdx i q 1).val = (i 1).val := by
  unfold DotDims.rhsIdx
  rw [dif_neg (show ¬(1 : Fin S200x400.rank) ∈ dot_S512x200_S200x400_S512x400_1_0_0_1_n_n.rhsBatch by decide), dif_pos (show (1 : Fin S200x400.rank) ∈ dot_S512x200_S200x400_S512x400_1_0_0_1_n_n.rhsNonContracting by decide)]
  rfl

theorem mm200x400 (L : FVec Ideal S512x200 .bf16) (R : FVec Ideal S200x400 .bf16) (r : Fin 512) (g : Fin 400) :
    matmul dot_S512x200_S200x400_S512x400_1_0_0_1_n_n none L R (constant (F := Ideal) S512x400 .f32 0x00000000#32) (ix2 r g)
      = ∑ k : Fin 200, L (ix2 r k) * R (ix2 k g) := by
  simp only [matmul]
  rw [Ideal.matmul_constant_zero_apply, ← Equiv.sum_comp (ValueIdx.contrEquiv1 dot_S512x200_S200x400_S512x400_1_0_0_1_n_n 200 rfl rfl).symm]
  refine Finset.sum_congr rfl fun k _ => ?_
  have hk := ValueIdx.contrEquiv1_symm_val dot_S512x200_S200x400_S512x400_1_0_0_1_n_n 200 rfl rfl k
  have el : dot_S512x200_S200x400_S512x400_1_0_0_1_n_n.lhsIdx (ix2 r g) ((ValueIdx.contrEquiv1 dot_S512x200_S200x400_S512x400_1_0_0_1_n_n 200 rfl rfl).symm k) = ix2 r k := funext fun a => Fin.ext (by
    match a with
    | ⟨0, _⟩ => exact lhs_mm200x400_0 _ _
    | ⟨1, _⟩ => exact (lhs_mm200x400_1 _ _).trans hk)
  have er : dot_S512x200_S200x400_S512x400_1_0_0_1_n_n.rhsIdx (ix2 r g) ((ValueIdx.contrEquiv1 dot_S512x200_S200x400_S512x400_1_0_0_1_n_n 200 rfl rfl).symm k) = ix2 k g := funext fun a => Fin.ext (by
    match a with
    | ⟨0, _⟩ => exact (rhs_mm200x400_0 _ _).trans hk
    | ⟨1, _⟩ => exact rhs_mm200x400_1 _ _)
  rw [el, er]

/-! ### Rows against rows: both operands contracted along their second axis -/

theorem lhs_mmOut_0 (i : S512x512.Idx) (q : dot_S512x400_S512x400_S512x512_1_1_0_0_n_n.contr.Idx) :
    (dot_S512x400_S512x400_S512x512_1_1_0_0_n_n.lhsIdx i q 0).val = (i 0).val := by
  unfold DotDims.lhsIdx
  rw [dif_neg (show ¬(0 : Fin S512x400.rank) ∈ dot_S512x400_S512x400_S512x512_1_1_0_0_n_n.lhsBatch by decide), dif_pos (show (0 : Fin S512x400.rank) ∈ dot_S512x400_S512x400_S512x512_1_1_0_0_n_n.lhsNonContracting by decide)]
  rfl
theorem lhs_mmOut_1 (i : S512x512.Idx) (q : dot_S512x400_S512x400_S512x512_1_1_0_0_n_n.contr.Idx) :
    (dot_S512x400_S512x400_S512x512_1_1_0_0_n_n.lhsIdx i q 1).val = (q ⟨0, by decide⟩).val :=
  dot_S512x400_S512x400_S512x512_1_1_0_0_n_n.lhsIdx_val_of_single rfl i q
theorem rhs_mmOut_0 (i : S512x512.Idx) (q : dot_S512x400_S512x400_S512x512_1_1_0_0_n_n.contr.Idx) :
    (dot_S512x400_S512x400_S512x512_1_1_0_0_n_n.rhsIdx i q 0).val = (i 1).val := by
  unfold DotDims.rhsIdx
  rw [dif_neg (show ¬(0 : Fin S512x400.rank) ∈ dot_S512x400_S512x400_S512x512_1_1_0_0_n_n.rhsBatch by decide), dif_pos (show (0 : Fin S512x400.rank) ∈ dot_S512x400_S512x400_S512x512_1_1_0_0_n_n.rhsNonContracting by decide)]
  rfl
theorem rhs_mmOut_1 (i : S512x512.Idx) (q : dot_S512x400_S512x400_S512x512_1_1_0_0_n_n.contr.Idx) :
    (dot_S512x400_S512x400_S512x512_1_1_0_0_n_n.rhsIdx i q 1).val = (q ⟨0, by decide⟩).val :=
  dot_S512x400_S512x400_S512x512_1_1_0_0_n_n.rhsIdx_val_of_single rfl i q

theorem mmOut (L R : FVec Ideal S512x400 .bf16) (r e : Fin 512) :
    matmul dot_S512x400_S512x400_S512x512_1_1_0_0_n_n none L R (constant (F := Ideal) S512x512 .f32 0x00000000#32) (ix2 r e)
      = ∑ k : Fin 400, L (ix2 r k) * R (ix2 e k) := by
  simp only [matmul]
  rw [Ideal.matmul_constant_zero_apply, ← Equiv.sum_comp (ValueIdx.contrEquiv1 dot_S512x400_S512x400_S512x512_1_1_0_0_n_n 400 rfl rfl).symm]
  refine Finset.sum_congr rfl fun k _ => ?_
  have hk := ValueIdx.contrEquiv1_symm_val dot_S512x400_S512x400_S512x512_1_1_0_0_n_n 400 rfl rfl k
  have el : dot_S512x400_S512x400_S512x512_1_1_0_0_n_n.lhsIdx (ix2 r e) ((ValueIdx.contrEquiv1 dot_S512x400_S512x400_S512x512_1_1_0_0_n_n 400 rfl rfl).symm k) = ix2 r k := funext fun a => Fin.ext (by
    match a with
    | ⟨0, _⟩ => exact lhs_mmOut_0 _ _
    | ⟨1, _⟩ => exact (lhs_mmOut_1 _ _).trans hk)
  have er : dot_S512x400_S512x400_S512x512_1_1_0_0_n_n.rhsIdx (ix2 r e) ((ValueIdx.contrEquiv1 dot_S512x400_S512x400_S512x512_1_1_0_0_n_n 400 rfl rfl).symm k) = ix2 e k := funext fun a => Fin.ext (by
    match a with
    | ⟨0, _⟩ => exact rhs_mmOut_0 _ _
    | ⟨1, _⟩ => exact (rhs_mmOut_1 _ _).trans hk)
  rw [el, er]

/-! ## Shape casts: a flat row against a table, `f = n*D + d` -/

theorem cast_flat_to_20x20 {φ : FTy} (v : FVec Ideal S512x400 φ) (r : Fin 512) (n d : Fin 20) (hf : n.val * 20 + d.val < 400) :
    shapeCast S512x20x20 v shapeCasts_S512x400_S512x20x20 (ix3 r n d) = v (ix2 r ⟨n.val * 20 + d.val, hf⟩) := by
  -- both indices sit at the same row-major position: (r*20 + n)*20 + d = r*400 + (n*20 + d)
  refine shapeCast_apply v shapeCasts_S512x400_S512x20x20 _ _ ?_
  rw [Shape.rowMajor_val_two, Shape.rowMajor_val_three]
  show r.val * 400 + (n.val * 20 + d.val) = (r.val * 20 + n.val) * 20 + d.val
  omega

theorem cast_20x20_to_flat {φ : FTy} (v : FVec Ideal S512x20x20 φ) (r : Fin 512) (n d : Fin 20) (hf : n.val * 20 + d.val < 400) :
    shapeCast S512x400 v shapeCasts_S512x20x20_S512x400 (ix2 r ⟨n.val * 20 + d.val, hf⟩) = v (ix3 r n d) := by
  refine shapeCast_apply v shapeCasts_S512x20x20_S512x400 _ _ ?_
  rw [Shape.rowMajor_val_two, Shape.rowMajor_val_three]
  show (r.val * 20 + n.val) * 20 + d.val = r.val * 400 + (n.val * 20 + d.val)
  omega

theorem cast_flat_to_20x10 {φ : FTy} (v : FVec Ideal S512x200 φ) (r : Fin 512) (n : Fin 20) (d : Fin 10) (hf : n.val * 10 + d.val < 200) :
    shapeCast S512x20x10 v shapeCasts_S512x200_S512x20x10 (ix3 r n d) = v (ix2 r ⟨n.val * 10 + d.val, hf⟩) := by
  -- (r*20 + n)*10 + d = r*200 + (n*10 + d)
  refine shapeCast_apply v shapeCasts_S512x200_S512x20x10 _ _ ?_
  rw [Shape.rowMajor_val_two, Shape.rowMajor_val_three]
  show r.val * 200 + (n.val * 10 + d.val) = (r.val * 20 + n.val) * 10 + d.val
  omega

theorem cast_20x10_to_flat {φ : FTy} (v : FVec Ideal S512x20x10 φ) (r : Fin 512) (n : Fin 20) (d : Fin 10) (hf : n.val * 10 + d.val < 200) :
    shapeCast S512x200 v shapeCasts_S512x20x10_S512x200 (ix2 r ⟨n.val * 10 + d.val, hf⟩) = v (ix3 r n d) := by
  refine shapeCast_apply v shapeCasts_S512x20x10_S512x200 _ _ ?_
  rw [Shape.rowMajor_val_two, Shape.rowMajor_val_three]
  show (r.val * 20 + n.val) * 10 + d.val = r.val * 200 + (n.val * 10 + d.val)
  omega

/-- A shape cast to the same shape is the identity (six of them open the body). -/
theorem cast_same_512x400 {φ : FTy} (v : FVec Ideal S512x400 φ) : shapeCast S512x400 v shapeCasts_S512x400_S512x400 = v := by
  exact shapeCast_self v _
theorem cast_same_400x400 {φ : FTy} (v : FVec Ideal S400x400 φ) : shapeCast S400x400 v shapeCasts_S400x400_S400x400 = v := by
  exact shapeCast_self v _
theorem cast_same_400x200 {φ : FTy} (v : FVec Ideal S400x200 φ) : shapeCast S400x200 v shapeCasts_S400x200_S400x200 = v := by
  exact shapeCast_self v _
theorem cast_same_200x400 {φ : FTy} (v : FVec Ideal S200x400 φ) : shapeCast S200x400 v shapeCasts_S200x400_S200x400 = v := by
  exact shapeCast_self v _
theorem cast_same_1x512 {φ : FTy} (v : FVec Ideal S1x512 φ) : shapeCast S1x512 v shapeCasts_S1x512_S1x512 = v := by
  exact shapeCast_self v _

/-! ## The tail: the row sum of squares, kept as a column, and the two broadcasts -/

theorem rowsum (v : FVec Ideal S512x512 .f32) (r : Fin 512) :
    multiReduction .add [1] S512 v 0x00000000#32 reduces_S512x512_S512 (.inl rfl) rfl (ix1 r) = ∑ k : Fin 512, v (ix2 r k) := by
  -- the sum over the reduced axis's coordinate, the reduced index `r` with that coordinate inserted being `(r, k)`
  refine (Ideal.multiReduction_add_single v 0x00000000#32 reduces_S512x512_S512 (.inl rfl) rfl (ix1 r)).trans ?_
  refine Finset.sum_congr rfl fun k _ => congrArg v ?_
  funext a
  match a with
  | ⟨0, _⟩ => rfl
  | ⟨1, _⟩ => rfl

theorem cast_to_column {φ : FTy} (v : FVec Ideal S512 φ) (r : Fin 512) (z : Fin 1) :
    shapeCast S512x1 v shapeCasts_S512_S512x1 (ix2 r z) = v (ix1 r) := by
  -- the column's one unit coordinate is 0, so the position is `r` on both sides
  refine shapeCast_apply v shapeCasts_S512_S512x1 _ _ ?_
  have hz : z.val = 0 := by omega
  rw [Shape.rowMajor_val_one, Shape.rowMajor_val_two]
  show r.val = r.val * 1 + z.val
  omega

theorem bcast_row (v : FVec Ideal S1x512 .f32) (r e : Fin 512) :
    broadcastTo S512x512 v broadcasts_S1x512_S512x512 (ix2 r e) = v (ix2 (0 : Fin 1) e) := by
  exact broadcastTo_1b_ab_apply v broadcasts_S1x512_S512x512 r e

theorem bcast_column (v : FVec Ideal S512x1 .f32) (r e : Fin 512) :
    broadcastTo S512x512 v broadcasts_S512x1_S512x512 (ix2 r e) = v (ix2 r (0 : Fin 1)) := by
  -- the operand's row axis is kept, its unit axis reads coordinate 0
  refine broadcastTo_apply v broadcasts_S512x1_S512x512 (ix2 r e) (ix2 r (0 : Fin 1)) fun ax => ?_
  match ax with
  | ⟨0, _⟩ => rfl
  | ⟨1, _⟩ => rfl

end Cert.KernelIdeal.BodyOps

end
-- ==== Proof.GraphNet.lean ====
/-
  The function both programs compute, one batch row at a time, on the extended reals.

  A row holds a 20 x 20 mixing matrix `a` and 20 node feature vectors `x`. Three times over, the nodes' features are
  mixed by `a` (`mix`) and every node's vector is sent through one shared linear map followed by the positive part
  (`act`); the 20 x 20 result, flattened node-major to 400 features, goes through a last linear map with a bias
  (`score`) and is divided by its Euclidean length plus a small constant (`unitize`).

  Also here: the law that lets one matrix product with a BLOCK-DIAGONAL weight stand for the shared linear map. When
  the flat weight is `b (i*D+p) = δ i j * w p` along the contracted index, the off-diagonal blocks contribute
  `u * (0 * w) = 0` and the diagonal block `u * (1 * w) = u * w`; both identities hold at every extended real, so no
  finiteness is needed.
-/
import Idealize.ShloMosaic.PureOps.Ideal
import Idealize.ShloMosaic.Lib.ValueIdx

noncomputable section

namespace GraphNet

open Idealize.ShloMosaic Idealize.ShloMosaic.ValueIdx

/-! ## The row function -/

/-- Mixing the nodes' features by the row's matrix: `(a h) n d = Σ_o a n o * h o d`. -/
def mix {D : Nat} (a : Fin 20 → Fin 20 → EReal) (h : Fin 20 → Fin D → EReal) (n : Fin 20) (d : Fin D) : EReal :=
  ∑ o : Fin 20, a n o * h o d

/-- The shared linear map `w` applied to every node's vector, then the positive part. -/
def act {D K : Nat} (h : Fin 20 → Fin D → EReal) (w : Fin K → Fin D → EReal) (n : Fin 20) (k : Fin K) : EReal :=
  max (∑ d : Fin D, h n d * w k d) 0

/-- Three rounds of mixing and acting, through widths 20, 10, 20. -/
def feat (a x : Fin 20 → Fin 20 → EReal) (w1 : Fin 20 → Fin 20 → EReal) (w2 : Fin 10 → Fin 20 → EReal)
    (w3 : Fin 20 → Fin 10 → EReal) : Fin 20 → Fin 20 → EReal :=
  act (mix a (act (mix a (act (mix a x) w1)) w2)) w3

/-- Node `f / 20`, feature `f % 20`: the node-major flattening of a 20 x 20 table. -/
def flat20 (h : Fin 20 → Fin 20 → EReal) (f : Fin 400) : EReal :=
  h ⟨f.val / 20, by have := f.isLt; omega⟩ ⟨f.val % 20, Nat.mod_lt _ (by decide)⟩

/-- The last linear map with its bias. -/
def score (h : Fin 20 → Fin 20 → EReal) (wout : Fin 512 → Fin 400 → EReal) (bout : Fin 512 → EReal) (e : Fin 512) : EReal :=
  (∑ f : Fin 400, flat20 h f * wout e f) + bout e

/-- The small constant added to the length, as the one binary32 word both programs carry. -/
def tiny : EReal := Ideal.ofBits .f32 0x322BCC77#32

/-- A vector over its Euclidean length plus `tiny`. -/
def unitize (u : Fin 512 → EReal) (e : Fin 512) : EReal :=
  Ideal.div (u e) (Ideal.sqrt (∑ k : Fin 512, u k * u k) + tiny)

/-- One row's 512 outputs. -/
def row (a x : Fin 20 → Fin 20 → EReal) (w1 : Fin 20 → Fin 20 → EReal) (w2 : Fin 10 → Fin 20 → EReal)
    (w3 : Fin 20 → Fin 10 → EReal) (wout : Fin 512 → Fin 400 → EReal) (bout : Fin 512 → EReal) : Fin 512 → EReal :=
  unitize (score (feat a x w1 w2 w3) wout bout)

/-! ## The whole result array as one function of the argument arrays -/

abbrev T65536x20x20 : Shape := ⟨3, ![65536, 20, 20]⟩
abbrev T20x20 : Shape := ⟨2, ![20, 20]⟩
abbrev T10x20 : Shape := ⟨2, ![10, 20]⟩
abbrev T20x10 : Shape := ⟨2, ![20, 10]⟩
abbrev T512x400 : Shape := ⟨2, ![512, 400]⟩
abbrev T512 : Shape := ⟨1, ![512]⟩
abbrev T65536x512 : Shape := ⟨2, ![65536, 512]⟩

/-- Entry `(b, e)` of the result is output `e` of row `b`. -/
def result (A X : FVec Ideal T65536x20x20 .f32) (W1 : FVec Ideal T20x20 .f32) (W2 : FVec Ideal T10x20 .f32)
    (W3 : FVec Ideal T20x10 .f32) (Wout : FVec Ideal T512x400 .f32) (bout : FVec Ideal T512 .f32) :
    FVec Ideal T65536x512 .f32 := fun i =>
  row (fun n o => A (ix3 (i 0) n o)) (fun o d => X (ix3 (i 0) o d)) (fun k d => W1 (ix2 k d)) (fun k d => W2 (ix2 k d))
    (fun k d => W3 (ix2 k d)) (fun e f => Wout (ix2 e f)) (fun e => bout (ix1 e)) (i 1)

/-! ## A sum over a flattened pair of indices, and the block-diagonal law -/

/-- A sum over `Fin (N * D)` taken block by block: `f = i * D + p`. -/
theorem sum_blocks {M : Type*} [AddCommMonoid M] (N D L : Nat) (hL : L = N * D) (F : Fin L → M) :
    ∑ f : Fin L, F f = ∑ i : Fin N, ∑ p : Fin D,
      F ⟨i.val * D + p.val, by
        have hi := i.isLt; have hp := p.isLt
        calc i.val * D + p.val < i.val * D + D := by omega
          _ = (i.val + 1) * D := by ring
          _ ≤ N * D := Nat.mul_le_mul_right D hi
          _ = L := hL.symm⟩ := by
  subst hL
  rw [← finProdFinEquiv.sum_comp, Fintype.sum_prod_type]
  refine Finset.sum_congr rfl fun i _ => Finset.sum_congr rfl fun p _ => ?_
  refine congrArg F (Fin.ext ?_)
  show p.val + D * i.val = i.val * D + p.val
  rw [Nat.mul_comm, Nat.add_comm]

/-- The block-diagonal law: contracting `u` against a weight that is `w` on block `j` and zero on every other block
    leaves the contraction of block `j` of `u` against `w`. On the extended reals `x * 0 = 0` and `1 * y = y` hold
    everywhere, so this needs no finiteness. -/
theorem sum_blockdiag (N D L : Nat) (hL : L = N * D) (u b : Fin L → EReal) (j : Fin N) (w : Fin D → EReal)
    (hb : ∀ (i : Fin N) (p : Fin D) (h : i.val * D + p.val < L), b ⟨i.val * D + p.val, h⟩ = (if i = j then 1 else 0) * w p) :
    ∑ f : Fin L, u f * b f = ∑ p : Fin D, u ⟨j.val * D + p.val, by
        have hj := j.isLt; have hp := p.isLt
        calc j.val * D + p.val < j.val * D + D := by omega
          _ = (j.val + 1) * D := by ring
          _ ≤ N * D := Nat.mul_le_mul_right D hj
          _ = L := hL.symm⟩ * w p := by
  rw [sum_blocks N D L hL, Finset.sum_eq_single j]
  · refine Finset.sum_congr rfl fun p _ => ?_
    rw [hb j p, if_pos rfl, one_mul]
  · intro i _ hij
    refine Finset.sum_eq_zero fun p _ => ?_
    rw [hb i p, if_neg hij, zero_mul, mul_zero]
  · intro h; exact absurd (Finset.mem_univ j) h

end GraphNet

end
-- ==== Proof.BodyRow.lean ====
/-
  The body's result at row `r`, column `e` of a block is the row function of that row of the two input blocks.

  The body is cut into named layers so that each is read at an index by itself: a flat block of rows seen as 20 x 20
  tables (`tab`); one round `relu (flat (A ⬝ H) · B)` with `B` block-diagonal, in the three widths the kernel uses
  (`layerA`, `layerB`, `layerC`); the last linear map with its bias (`logits`); the division by the row's Euclidean
  length plus the small constant (`normed`). A round's flat product against the block-diagonal weight is the shared
  linear map on each node's vector by `GraphNet.sum_blockdiag`.
-/
import proofs.«407113_j6193342840985_3_alg».proof.Proof.Gen.KernelIdeal.Frame
import proofs.«407113_j6193342840985_3_alg».proof.Proof.BodyOps
import proofs.«407113_j6193342840985_3_alg».proof.Proof.GraphNet

noncomputable section

namespace Cert.KernelIdeal.BodyRow

open Cert.KernelIdeal Cert.KernelIdeal.Gen Cert.KernelIdeal.BodyOps Idealize.ShloMosaic Idealize.ShloMosaic.ValueIdx GraphNet

theorem hz : (![0, 0] : Fin 2 → Nat) = fun _ => 0 := funext fun a => by fin_cases a <;> rfl

/-! ## The layers -/

/-- A flat block of rows as 20 x 20 tables. -/
def tab (x : FVec Ideal S512x400 .f32) : FVec Ideal S512x20x20 .bf16 :=
  truncf .bf16 (shapeCast S512x20x20 x shapeCasts_S512x400_S512x20x20) bitsLt_bf16_f32

/-- A flat block of rows as 20 x 10 tables. -/
def tab10 (x : FVec Ideal S512x200 .f32) : FVec Ideal S512x20x10 .bf16 :=
  truncf .bf16 (shapeCast S512x20x10 x shapeCasts_S512x200_S512x20x10) bitsLt_bf16_f32

/-- One round at widths 20 → 20. -/
def layerA (A H : FVec Ideal S512x20x20 .bf16) (B : FVec Ideal S400x400 .bf16) : FVec Ideal S512x400 .f32 :=
  maximumf (matmul dot_S512x400_S400x400_S512x400_1_0_0_1_n_n none
      (truncf .bf16 (shapeCast S512x400 (matmul dot_S512x20x20_S512x20x20_S512x20x20_2_1_1_2_0_0 none A H
        (constant S512x20x20 .f32 0x00000000#32)) shapeCasts_S512x20x20_S512x400) bitsLt_bf16_f32)
      B (constant S512x400 .f32 0x00000000#32))
    (broadcast S512x400 (Scalar.ofBits .f32 0x00000000#32))

/-- One round at widths 20 → 10. -/
def layerB (A H : FVec Ideal S512x20x20 .bf16) (B : FVec Ideal S400x200 .bf16) : FVec Ideal S512x200 .f32 :=
  maximumf (matmul dot_S512x400_S400x200_S512x200_1_0_0_1_n_n none
      (truncf .bf16 (shapeCast S512x400 (matmul dot_S512x20x20_S512x20x20_S512x20x20_2_1_1_2_0_0 none A H
        (constant S512x20x20 .f32 0x00000000#32)) shapeCasts_S512x20x20_S512x400) bitsLt_bf16_f32)
      B (constant S512x200 .f32 0x00000000#32))
    (broadcast S512x200 (Scalar.ofBits .f32 0x00000000#32))

/-- One round at widths 10 → 20. -/
def layerC (A : FVec Ideal S512x20x20 .bf16) (H : FVec Ideal S512x20x10 .bf16) (B : FVec Ideal S200x400 .bf16) :
    FVec Ideal S512x400 .f32 :=
  maximumf (matmul dot_S512x200_S200x400_S512x400_1_0_0_1_n_n none
      (truncf .bf16 (shapeCast S512x200 (matmul dot_S512x20x20_S512x20x10_S512x20x10_2_1_1_2_0_0 none A H
        (constant S512x20x10 .f32 0x00000000#32)) shapeCasts_S512x20x10_S512x200) bitsLt_bf16_f32)
      B (constant S512x400 .f32 0x00000000#32))
    (broadcast S512x400 (Scalar.ofBits .f32 0x00000000#32))

/-- The last linear map and its bias. -/
def logits (Z : FVec Ideal S512x400 .f32) (Wt : FVec Ideal S512x400 .bf16) (bb : FVec Ideal S1x512 .f32) :
    FVec Ideal S512x512 .f32 :=
  addf (matmul dot_S512x400_S512x400_S512x512_1_1_0_0_n_n none (truncf .bf16 Z bitsLt_bf16_f32) Wt
      (constant S512x512 .f32 0x00000000#32))
    (broadcastTo S512x512 bb broadcasts_S1x512_S512x512)

/-- Every row over its length plus the small constant. -/
def normed (U : FVec Ideal S512x512 .f32) : FVec Ideal S512x512 .f32 :=
  divf U (broadcastTo S512x512
    (addf (sqrt (shapeCast S512x1 (multiReduction .add [1] S512 (mulf U U) 0x00000000#32 reduces_S512x512_S512 (.inl rfl) rfl)
        shapeCasts_S512_S512x1))
      (broadcast S512x1 (Scalar.ofBits .f32 0x322BCC77#32)))
    broadcasts_S512x1_S512x512)

/-- The body's one store, over the layers. -/
theorem out_eq (x0 x1 : Vec Ideal S512x400 .f32) (x2 : Vec Ideal S400x400 .bf16) (x3 : Vec Ideal S400x200 .bf16)
    (x4 : Vec Ideal S200x400 .bf16) (x5 : Vec Ideal S512x400 .bf16) (x6 : Vec Ideal S1x512 .f32) :
    out0_7 x0 x1 x2 x3 x4 x5 x6
      = normed (logits (layerC (tab x0) (tab10 (layerB (tab x0) (tab (layerA (tab x0) (tab x1) x2)) x3)) x4) x5 x6) := by
  unfold out0_7
  rw [View.canon_unit_zero hz]
  simp only [View.ld_unit_zero (S := S512x400) hz, View.ld_unit_zero (S := S400x400) hz, View.ld_unit_zero (S := S400x200) hz,
    View.ld_unit_zero (S := S200x400) hz, View.ld_unit_zero (S := S1x512) hz]
  unfold k0_pay1 k0_pay2 k0_pay3 k0_pay4 k0_pay5 normed logits layerC layerB layerA tab tab10
  simp only [cast_same_512x400, cast_same_400x400, cast_same_400x200, cast_same_200x400, cast_same_1x512]

/-! ## Each layer at an index -/

theorem flat_jq (g : Fin 400) : ∃ (j q : Fin 20) (h : j.val * 20 + q.val < 400), g = ⟨j.val * 20 + q.val, h⟩ :=
  ⟨⟨g.val / 20, by have := g.isLt; omega⟩, ⟨g.val % 20, Nat.mod_lt _ (by decide)⟩, by have := g.isLt; show g.val / 20 * 20 + g.val % 20 < 400; omega,
    Fin.ext (by show g.val = g.val / 20 * 20 + g.val % 20; omega)⟩

theorem flat20_mk (h : Fin 20 → Fin 20 → EReal) (j q : Fin 20) (hf : j.val * 20 + q.val < 400) :
    flat20 h ⟨j.val * 20 + q.val, hf⟩ = h j q := by
  unfold flat20
  have hj := j.isLt; have hq := q.isLt
  congr 1 <;> exact Fin.ext (by simp only []; omega)

theorem tab_apply (x : FVec Ideal S512x400 .f32) (r : Fin 512) (n d : Fin 20) (hf : n.val * 20 + d.val < 400) :
    tab x (ix3 r n d) = x (ix2 r ⟨n.val * 20 + d.val, hf⟩) :=
  cast_flat_to_20x20 x r n d hf

theorem tab10_apply (x : FVec Ideal S512x200 .f32) (r : Fin 512) (n : Fin 20) (d : Fin 10) (hf : n.val * 10 + d.val < 200) :
    tab10 x (ix3 r n d) = x (ix2 r ⟨n.val * 10 + d.val, hf⟩) :=
  cast_flat_to_20x10 x r n d hf

theorem layerA_apply (A H : FVec Ideal S512x20x20 .bf16) (B : FVec Ideal S400x400 .bf16) (w : Fin 20 → Fin 20 → EReal)
    (hB : ∀ (i p j q : Fin 20) (hf : i.val * 20 + p.val < 400) (hg : j.val * 20 + q.val < 400),
      B (ix2 ⟨i.val * 20 + p.val, hf⟩ ⟨j.val * 20 + q.val, hg⟩) = (if i = j then (1 : EReal) else 0) * w q p)
    (r : Fin 512) (j q : Fin 20) (hg : j.val * 20 + q.val < 400) :
    layerA A H B (ix2 r ⟨j.val * 20 + q.val, hg⟩)
      = act (mix (fun n o => A (ix3 r n o)) (fun o d => H (ix3 r o d))) w j q := by
  unfold layerA act mix
  rw [maximumf_apply, broadcast_apply, mm400x400]
  show max _ (Ideal.ofBits .f32 0x00000000#32) = _
  rw [Ideal.ofBits_zero_f32]
  congr 1
  refine (sum_blockdiag 20 20 400 rfl _ (fun k => B (ix2 k ⟨j.val * 20 + q.val, hg⟩)) j (fun p => w q p)
    (fun i p h => hB i p j q h hg)).trans ?_
  refine Finset.sum_congr rfl fun p _ => ?_
  beta_reduce
  congr 1
  rw [truncf_apply, cast_20x20_to_flat, mix20]

theorem layerB_apply (A H : FVec Ideal S512x20x20 .bf16) (B : FVec Ideal S400x200 .bf16) (w : Fin 10 → Fin 20 → EReal)
    (hB : ∀ (i p j : Fin 20) (q : Fin 10) (hf : i.val * 20 + p.val < 400) (hg : j.val * 10 + q.val < 200),
      B (ix2 ⟨i.val * 20 + p.val, hf⟩ ⟨j.val * 10 + q.val, hg⟩) = (if i = j then (1 : EReal) else 0) * w q p)
    (r : Fin 512) (j : Fin 20) (q : Fin 10) (hg : j.val * 10 + q.val < 200) :
    layerB A H B (ix2 r ⟨j.val * 10 + q.val, hg⟩)
      = act (mix (fun n o => A (ix3 r n o)) (fun o d => H (ix3 r o d))) w j q := by
  unfold layerB act mix
  rw [maximumf_apply, broadcast_apply, mm400x200]
  show max _ (Ideal.ofBits .f32 0x00000000#32) = _
  rw [Ideal.ofBits_zero_f32]
  congr 1
  refine (sum_blockdiag 20 20 400 rfl _ (fun k => B (ix2 k ⟨j.val * 10 + q.val, hg⟩)) j (fun p => w q p)
    (fun i p h => hB i p j q h hg)).trans ?_
  refine Finset.sum_congr rfl fun p _ => ?_
  beta_reduce
  congr 1
  rw [truncf_apply, cast_20x20_to_flat, mix20]

theorem layerC_apply (A : FVec Ideal S512x20x20 .bf16) (H : FVec Ideal S512x20x10 .bf16) (B : FVec Ideal S200x400 .bf16)
    (w : Fin 20 → Fin 10 → EReal)
    (hB : ∀ (i : Fin 20) (p : Fin 10) (j q : Fin 20) (hf : i.val * 10 + p.val < 200) (hg : j.val * 20 + q.val < 400),
      B (ix2 ⟨i.val * 10 + p.val, hf⟩ ⟨j.val * 20 + q.val, hg⟩) = (if i = j then (1 : EReal) else 0) * w q p)
    (r : Fin 512) (j q : Fin 20) (hg : j.val * 20 + q.val < 400) :
    layerC A H B (ix2 r ⟨j.val * 20 + q.val, hg⟩)
      = act (mix (fun n o => A (ix3 r n o)) (fun o d => H (ix3 r o d))) w j q := by
  unfold layerC act mix
  rw [maximumf_apply, broadcast_apply, mm200x400]
  show max _ (Ideal.ofBits .f32 0x00000000#32) = _
  rw [Ideal.ofBits_zero_f32]
  congr 1
  refine (sum_blockdiag 20 10 200 rfl _ (fun k => B (ix2 k ⟨j.val * 20 + q.val, hg⟩)) j (fun p => w q p)
    (fun i p h => hB i p j q h hg)).trans ?_
  refine Finset.sum_congr rfl fun p _ => ?_
  beta_reduce
  congr 1
  rw [truncf_apply, cast_20x10_to_flat, mix10]

theorem logits_apply (Z : FVec Ideal S512x400 .f32) (Wt : FVec Ideal S512x400 .bf16) (bb : FVec Ideal S1x512 .f32)
    (h : Fin 20 → Fin 20 → EReal) (r : Fin 512) (hZ : ∀ g : Fin 400, Z (ix2 r g) = flat20 h g) (e : Fin 512) :
    logits Z Wt bb (ix2 r e) = score h (fun e f => Wt (ix2 e f)) (fun e => bb (ix2 (0 : Fin 1) e)) e := by
  unfold logits score
  rw [addf_apply, mmOut, bcast_row]
  congr 1
  refine Finset.sum_congr rfl fun k _ => ?_
  congr 1
  exact hZ k

theorem normed_apply (U : FVec Ideal S512x512 .f32) (r e : Fin 512) :
    normed U (ix2 r e) = unitize (fun k => U (ix2 r k)) e := by
  unfold normed unitize tiny
  rw [divf_apply, bcast_column, addf_apply, broadcast_apply]
  show Ideal.div _ (Ideal.sqrt (shapeCast S512x1 _ shapeCasts_S512_S512x1 (ix2 r (0 : Fin 1))) + _) = _
  rw [cast_to_column, rowsum]
  rfl

/-! ## The body at an index -/

/-- Row `r` of a flat block as a 20 x 20 table: entry `(n, o)` is the row's entry `n*20 + o`. -/
abbrev rowTab (x : FVec Ideal S512x400 .f32) (r : Fin 512) : Fin 20 → Fin 20 → EReal :=
  fun n o => x (ix2 r ⟨n.val * 20 + o.val, by have := n.isLt; have := o.isLt; omega⟩)

theorem tab_row (x : FVec Ideal S512x400 .f32) (r : Fin 512) :
    (fun (n o : Fin 20) => tab x (ix3 r n o)) = rowTab x r :=
  funext fun n => funext fun o => tab_apply x r n o _

/-- Row `r`, column `e` of the body's result: the row function of row `r` of the two input blocks, the shared weights
    read off the block-diagonal tables. -/
theorem body_row (x0 x1 : Vec Ideal S512x400 .f32) (x2 : Vec Ideal S400x400 .bf16) (x3 : Vec Ideal S400x200 .bf16)
    (x4 : Vec Ideal S200x400 .bf16) (x5 : Vec Ideal S512x400 .bf16) (x6 : Vec Ideal S1x512 .f32)
    (w1 : Fin 20 → Fin 20 → EReal) (w2 : Fin 10 → Fin 20 → EReal) (w3 : Fin 20 → Fin 10 → EReal)
    (h2 : ∀ (i p j q : Fin 20) (hf : i.val * 20 + p.val < 400) (hg : j.val * 20 + q.val < 400),
      (x2 (ix2 ⟨i.val * 20 + p.val, hf⟩ ⟨j.val * 20 + q.val, hg⟩) : EReal) = (if i = j then (1 : EReal) else 0) * w1 q p)
    (h3 : ∀ (i p j : Fin 20) (q : Fin 10) (hf : i.val * 20 + p.val < 400) (hg : j.val * 10 + q.val < 200),
      (x3 (ix2 ⟨i.val * 20 + p.val, hf⟩ ⟨j.val * 10 + q.val, hg⟩) : EReal) = (if i = j then (1 : EReal) else 0) * w2 q p)
    (h4 : ∀ (i : Fin 20) (p : Fin 10) (j q : Fin 20) (hf : i.val * 10 + p.val < 200) (hg : j.val * 20 + q.val < 400),
      (x4 (ix2 ⟨i.val * 10 + p.val, hf⟩ ⟨j.val * 20 + q.val, hg⟩) : EReal) = (if i = j then (1 : EReal) else 0) * w3 q p)
    (r e : Fin 512) :
    (out0_7 x0 x1 x2 x3 x4 x5 x6 (ix2 r e) : EReal)
      = row (rowTab x0 r) (rowTab x1 r) w1 w2 w3 (fun e f => x5 (ix2 e f)) (fun e => x6 (ix2 (0 : Fin 1) e)) e := by
  -- the first round, as a table of row `r`
  have e1 : (fun (o d : Fin 20) => tab (layerA (tab x0) (tab x1) x2) (ix3 r o d))
      = act (mix (rowTab x0 r) (rowTab x1 r)) w1 := by
    funext o d
    rw [tab_apply _ r o d (by have := o.isLt; have := d.isLt; omega),
      layerA_apply (tab x0) (tab x1) x2 w1 h2 r o d _, tab_row x0 r, tab_row x1 r]
  -- the second
  have e2 : (fun (o : Fin 20) (d : Fin 10) => tab10 (layerB (tab x0) (tab (layerA (tab x0) (tab x1) x2)) x3) (ix3 r o d))
      = act (mix (rowTab x0 r) (act (mix (rowTab x0 r) (rowTab x1 r)) w1)) w2 := by
    funext o d
    rw [tab10_apply _ r o d (by have := o.isLt; have := d.isLt; omega),
      layerB_apply (tab x0) (tab (layerA (tab x0) (tab x1) x2)) x3 w2 h3 r o d _, tab_row x0 r, e1]
  rw [out_eq, normed_apply]
  unfold row
  refine congrFun (congrArg unitize (funext fun k => ?_)) e
  refine logits_apply _ x5 x6 _ r (fun g => ?_) k
  obtain ⟨j, q, hg, rfl⟩ := flat_jq g
  rw [flat20_mk, layerC_apply (tab x0) _ x4 w3 h4 r j q hg, tab_row x0 r, e2]
  rfl

end Cert.KernelIdeal.BodyRow

end
-- ==== Proof.HostSide.lean ====
/-
  What the kernel's region finds in the arrays the host operations before it wrote, read at an index: the two
  flattened inputs, the bias as a one-row table, the three block-diagonal weights (the Kronecker product of the
  20 x 20 identity with a transposed weight: entry `(i*P+p, j*Q+q)` is `δ i j * w q p`), and the last weight unchanged.
-/
import proofs.«407113_j6193342840985_3_alg».proof.Proof.Gen.KernelIdeal.Frame
import Idealize.ShloMosaic.Lib.ValueIdx
import Idealize.ShloMosaic.Lib.Pipeline.Value
import Idealize.ShloMosaic.Lib.StableHlo.Run
import Idealize.ShloMosaic.Lib.StableHlo.Predicate

noncomputable section

namespace Cert.KernelIdeal.HostSide

open Cert.KernelIdeal Cert.KernelIdeal.Gen Idealize.ShloMosaic Idealize.ShloMosaic.TcCoe Idealize.ShloMosaic.ValueIdx Idealize.SL.Sem

variable (m : (ℓ : Loc nD τ sig) → Buf (Elt Ideal) ℓ) (c : Dev nD)

/-! ## The three reshapes -/

/-- The array the region finds in the first flattened input's buffer: the launch contents under the other shape. -/
theorem e_v0 : (V m c main_v0 : S65536x400.Idx → EReal)
    = shapeCast S65536x400 (m ((c : Thread nD τ).loc main_arg0)) shapeCasts_S65536x20x20_S65536x400 := by
  dsimp only [Gen.V]
  simp only [hostOps0, hostOps0_1, hostOps0_2, hostOps0_3, hostOps0_4, hostOps0_5, hostOps0_6, List.flatten_cons, List.flatten_nil,
    List.append_nil, List.cons_append, List.nil_append]
  after_results
  rfl

/-- The first input, flattened: entry `(b, n*20+o)` is `A[b, n, o]`. -/
theorem v0_apply (b : Fin 65536) (n o : Fin 20) (hf : n.val * 20 + o.val < 400) :
    (V m c main_v0 : S65536x400.Idx → EReal) (ix2 b ⟨n.val * 20 + o.val, hf⟩)
      = (m ((c : Thread nD τ).loc main_arg0) : S65536x20x20.Idx → EReal) (ix3 b n o) := by
  rw [e_v0]
  -- both row-major positions are (b*20+n)*20+o
  refine shapeCast_apply (s := S65536x20x20) (t := S65536x400) _ _ _ _ ?_
  rw [Shape.rowMajor_val_three, Shape.rowMajor_val_two]
  show (b.val * 20 + n.val) * 20 + o.val = b.val * 400 + (n.val * 20 + o.val)
  omega

/-- The same for the second input. -/
theorem e_v1 : (V m c main_v1 : S65536x400.Idx → EReal)
    = shapeCast S65536x400 (m ((c : Thread nD τ).loc main_arg1)) shapeCasts_S65536x20x20_S65536x400 := by
  dsimp only [Gen.V]
  simp only [hostOps0, hostOps0_1, hostOps0_2, hostOps0_3, hostOps0_4, hostOps0_5, hostOps0_6, List.flatten_cons, List.flatten_nil,
    List.append_nil, List.cons_append, List.nil_append]
  after_results
  rfl

/-- The second input, flattened the same way. -/
theorem v1_apply (b : Fin 65536) (o d : Fin 20) (hf : o.val * 20 + d.val < 400) :
    (V m c main_v1 : S65536x400.Idx → EReal) (ix2 b ⟨o.val * 20 + d.val, hf⟩)
      = (m ((c : Thread nD τ).loc main_arg1) : S65536x20x20.Idx → EReal) (ix3 b o d) := by
  rw [e_v1]
  refine shapeCast_apply (s := S65536x20x20) (t := S65536x400) _ _ _ _ ?_
  rw [Shape.rowMajor_val_three, Shape.rowMajor_val_two]
  show (b.val * 20 + o.val) * 20 + d.val = b.val * 400 + (o.val * 20 + d.val)
  omega

/-- The bias under the shape of a one-row table. -/
theorem e_v2 : (V m c main_v2 : S1x512.Idx → EReal)
    = shapeCast S1x512 (m ((c : Thread nD τ).loc main_arg6)) shapeCasts_S512_S1x512 := by
  dsimp only [Gen.V]
  simp only [hostOps0, hostOps0_1, hostOps0_2, hostOps0_3, hostOps0_4, hostOps0_5, hostOps0_6, List.flatten_cons, List.flatten_nil,
    List.append_nil, List.cons_append, List.nil_append]
  after_results
  rfl

/-- The bias as a table of one row. -/
theorem v2_apply (z : Fin 1) (e : Fin 512) :
    (V m c main_v2 : S1x512.Idx → EReal) (ix2 z e)
      = (m ((c : Thread nD τ).loc main_arg6) : S512.Idx → EReal) (ix1 e) := by
  rw [e_v2]
  -- the one row is row 0, so the position is the column
  have hz : z.val = 0 := by omega
  refine shapeCast_apply (s := S512) (t := S1x512) _ _ _ _ ?_
  rw [Shape.rowMajor_val_one, Shape.rowMajor_val_two]
  show e.val = z.val * 512 + e.val
  omega

/-! ## The identity matrix -/

/-- The 20 x 20 identity matrix as the host operations build it: the row number (plus a zero) compared with the column
    number, the one-bit answer read as a float. -/
def eye : FVec Ideal S20x20 .f32 :=
  uitofp (F := Ideal) .f32 (cmpi .eq (addi (iotaInDim S20x20 32 0) (broadcastInDim S20x20 ![] bcast_S_S20x20 (constantI S_ 32 0#32)))
    (iotaInDim S20x20 32 1))

/-- That is what the region finds in the identity's buffer. -/
theorem e_v8 : (V m c main_v8 : S20x20.Idx → EReal) = eye := by
  dsimp only [Gen.V]
  simp only [hostOps0, hostOps0_1, hostOps0_2, hostOps0_3, hostOps0_4, hostOps0_5, hostOps0_6, List.flatten_cons, List.flatten_nil,
    List.append_nil, List.cons_append, List.nil_append]
  after_results
  rfl

/-- Two numbers below 20, as 32-bit words (the first with a zero added), are the same word exactly when they are the
    same number: nothing wraps. -/
theorem word_eq_iff (i j : Fin 20) : IntOp.addi (BitVec.ofNat 32 i.val) 0#32 = BitVec.ofNat 32 j.val ↔ i = j := by
  have hi : i.val < 2 ^ 32 := by have := i.isLt; omega
  have hj : j.val < 2 ^ 32 := by have := j.isLt; omega
  show BitVec.ofNat 32 i.val + 0#32 = BitVec.ofNat 32 j.val ↔ i = j
  rw [BitVec.add_zero]
  constructor
  · intro h
    have h' := congrArg BitVec.toNat h
    rw [BitVec.toNat_ofNat, BitVec.toNat_ofNat, Nat.mod_eq_of_lt hi, Nat.mod_eq_of_lt hj] at h'
    exact Fin.ext h'
  · intro h; rw [h]

/-- Entry `(i, j)` of the identity matrix is `1` on the diagonal and `0` off it. -/
theorem eye_apply (i j : Fin 20) : (eye : S20x20.Idx → EReal) (ix2 i j) = if i = j then (1 : EReal) else 0 := by
  show (((IntOp.cmpi .eq (IntOp.addi (BitVec.ofNat 32 i.val) 0#32) (BitVec.ofNat 32 j.val)).toNat : ℝ) : EReal) = _
  by_cases h : i = j
  · rw [if_pos h, StableHlo.Predicate.cmpi_eq_iff.mpr ((word_eq_iff i j).mpr h)]
    norm_num
  · rw [if_neg h, eq_zero_of_ne_one (fun h1 => h ((word_eq_iff i j).mp (StableHlo.Predicate.cmpi_eq_iff.mp h1)))]
    norm_num

/-! ## The Kronecker products -/

/-- A transposed matrix read at `(p, q)` is the matrix at `(q, p)`. -/
theorem transpose_10_apply {P Q : ℕ} (W : (⟨2, ![Q, P]⟩ : Shape).Idx → EReal)
    (h : (⟨2, ![Q, P]⟩ : Shape).Transposes [1, 0] ⟨2, ![P, Q]⟩) (p : Fin P) (q : Fin Q) :
    transpose ⟨2, ![P, Q]⟩ [1, 0] W h (ix2 p q) = W (ix2 q p) :=
  transpose_apply _ W h _ _ fun b => match b with | ⟨0, _⟩ => rfl | ⟨1, _⟩ => rfl

section Kron
variable {P Q M N : ℕ}

/-- The Kronecker product of a 20 x 20 matrix `E` with a `P x Q` matrix `W`, as the host operations build it (each
    factor laid along two of four axes, the two multiplied, the four axes flattened to two): entry
    `(i*P+p, j*Q+q)` is `E[i,j] * W[p,q]`. -/
theorem kron_apply (E : (⟨2, ![20, 20]⟩ : Shape).Idx → EReal) (W : (⟨2, ![P, Q]⟩ : Shape).Idx → EReal)
    (hA : (⟨2, ![20, 20]⟩ : Shape).BroadcastsInDim ⟨4, ![20, 1, 20, 1]⟩ ![0, 2])
    (hB : (⟨2, ![P, Q]⟩ : Shape).BroadcastsInDim ⟨4, ![1, P, 1, Q]⟩ ![1, 3])
    (hA' : (⟨4, ![20, 1, 20, 1]⟩ : Shape).BroadcastsInDim ⟨4, ![20, P, 20, Q]⟩ ![0, 1, 2, 3])
    (hB' : (⟨4, ![1, P, 1, Q]⟩ : Shape).BroadcastsInDim ⟨4, ![20, P, 20, Q]⟩ ![0, 1, 2, 3])
    (hC : (⟨4, ![20, P, 20, Q]⟩ : Shape).ShapeCasts ⟨2, ![M, N]⟩) (hN : N = 20 * Q)
    (i j : Fin 20) (p : Fin P) (q : Fin Q) (hf : i.val * P + p.val < M) (hg : j.val * Q + q.val < N) :
    shapeCast ⟨2, ![M, N]⟩ (mulf (F := Ideal) (φ := .f32)
        (broadcastInDim ⟨4, ![20, P, 20, Q]⟩ ![0, 1, 2, 3] hA' (broadcastInDim ⟨4, ![20, 1, 20, 1]⟩ ![0, 2] hA E))
        (broadcastInDim ⟨4, ![20, P, 20, Q]⟩ ![0, 1, 2, 3] hB' (broadcastInDim ⟨4, ![1, P, 1, Q]⟩ ![1, 3] hB W))) hC
        (ix2 ⟨i.val * P + p.val, hf⟩ ⟨j.val * Q + q.val, hg⟩)
      = E (ix2 i j) * W (ix2 p q) := by
  have hp := p.isLt
  have hq := q.isLt
  -- the flattening: both positions are ((i*P+p)*20+j)*Q+q
  refine (shapeCast_apply _ hC _ (ix4 i p j q) ?_).trans ?_
  · rw [Shape.rowMajor_val_four, Shape.rowMajor_val_two]
    show ((i.val * P + p.val) * 20 + j.val) * Q + q.val = (i.val * P + p.val) * N + (j.val * Q + q.val)
    rw [hN]; ring
  -- the product is pointwise; each factor is read through its two broadcasts
  show (broadcastInDim ⟨4, ![20, P, 20, Q]⟩ ![0, 1, 2, 3] hA' (broadcastInDim ⟨4, ![20, 1, 20, 1]⟩ ![0, 2] hA E)) (ix4 i p j q)
      * (broadcastInDim ⟨4, ![20, P, 20, Q]⟩ ![0, 1, 2, 3] hB' (broadcastInDim ⟨4, ![1, P, 1, Q]⟩ ![1, 3] hB W)) (ix4 i p j q) = _
  congr 1
  · refine (broadcastInDim_apply _ hA' _ _ (ix4 i (0 : Fin 1) j (0 : Fin 1)) fun a => ?_).trans
      (broadcastInDim_apply _ hA _ _ (ix2 i j) fun a => ?_)
    · match a with
      | ⟨0, _⟩ => show i.val = if (20 : ℕ) = 1 then 0 else i.val; rw [if_neg (by decide)]
      | ⟨1, _⟩ => show 0 = if (1 : ℕ) = 1 then 0 else p.val; rw [if_pos rfl]
      | ⟨2, _⟩ => show j.val = if (20 : ℕ) = 1 then 0 else j.val; rw [if_neg (by decide)]
      | ⟨3, _⟩ => show 0 = if (1 : ℕ) = 1 then 0 else q.val; rw [if_pos rfl]
    · match a with
      | ⟨0, _⟩ => show i.val = if (20 : ℕ) = 1 then 0 else i.val; rw [if_neg (by decide)]
      | ⟨1, _⟩ => show j.val = if (20 : ℕ) = 1 then 0 else j.val; rw [if_neg (by decide)]
  · refine (broadcastInDim_apply _ hB' _ _ (ix4 (0 : Fin 1) p (0 : Fin 1) q) fun a => ?_).trans
      (broadcastInDim_apply _ hB _ _ (ix2 p q) fun a => ?_)
    · match a with
      | ⟨0, _⟩ => show 0 = if (1 : ℕ) = 1 then 0 else i.val; rw [if_pos rfl]
      | ⟨1, _⟩ => show p.val = if P = 1 then 0 else p.val; split <;> omega
      | ⟨2, _⟩ => show 0 = if (1 : ℕ) = 1 then 0 else j.val; rw [if_pos rfl]
      | ⟨3, _⟩ => show q.val = if Q = 1 then 0 else q.val; split <;> omega
    · match a with
      | ⟨0, _⟩ => show p.val = if P = 1 then 0 else p.val; split <;> omega
      | ⟨1, _⟩ => show q.val = if Q = 1 then 0 else q.val; split <;> omega

end Kron

/-- The array the region finds in the first block-diagonal weight's buffer, as one term over the launch contents: the
    Kronecker product of the identity with the transposed weight, in the narrower float format. -/
theorem e_v11 : (V m c main_v11 : S400x400.Idx → EReal)
    = truncf (F := Ideal) .bf16 (shapeCast S400x400 (mulf (F := Ideal)
        (broadcastInDim S20x20x20x20 ![0, 1, 2, 3] bcast_S20x1x20x1_S20x20x20x20_0_1_2_3 (broadcastInDim S20x1x20x1 ![0, 2] bcast_S20x20_S20x1x20x1_0_2 eye))
        (broadcastInDim S20x20x20x20 ![0, 1, 2, 3] bcast_S1x20x1x20_S20x20x20x20_0_1_2_3 (broadcastInDim S1x20x1x20 ![1, 3] bcast_S20x20_S1x20x1x20_1_3
          (transpose S20x20 [1, 0] (m ((c : Thread nD τ).loc main_arg2)) transposes_S20x20_S20x20_1_0)))) shapeCasts_S20x20x20x20_S400x400) bitsLt_bf16_f32 := by
  dsimp only [Gen.V]
  simp only [hostOps0, hostOps0_1, hostOps0_2, hostOps0_3, hostOps0_4, hostOps0_5, hostOps0_6, List.flatten_cons, List.flatten_nil,
    List.append_nil, List.cons_append, List.nil_append]
  after_results
  rfl

/-- The first block-diagonal weight: `δ i j * W1[q, p]` at `(i*20+p, j*20+q)`. -/
theorem v11_apply (i p j q : Fin 20) (hf : i.val * 20 + p.val < 400) (hg : j.val * 20 + q.val < 400) :
    (V m c main_v11 : S400x400.Idx → EReal) (ix2 ⟨i.val * 20 + p.val, hf⟩ ⟨j.val * 20 + q.val, hg⟩)
      = (if i = j then (1 : EReal) else 0) * (m ((c : Thread nD τ).loc main_arg2) : S20x20.Idx → EReal) (ix2 q p) := by
  rw [e_v11]
  -- the change of float format is the identity on the extended reals; what is left is the Kronecker product's entry
  refine (kron_apply eye (transpose S20x20 [1, 0] (m ((c : Thread nD τ).loc main_arg2)) transposes_S20x20_S20x20_1_0) bcast_S20x20_S20x1x20x1_0_2 bcast_S20x20_S1x20x1x20_1_3
    bcast_S20x1x20x1_S20x20x20x20_0_1_2_3 bcast_S1x20x1x20_S20x20x20x20_0_1_2_3 shapeCasts_S20x20x20x20_S400x400 rfl i j p q hf hg).trans ?_
  rw [eye_apply, transpose_10_apply]

/-- The array the region finds in the second block-diagonal weight's buffer, as one term over the launch contents: the
    Kronecker product of the identity with the transposed weight, in the narrower float format. -/
theorem e_v14 : (V m c main_v14 : S400x200.Idx → EReal)
    = truncf (F := Ideal) .bf16 (shapeCast S400x200 (mulf (F := Ideal)
        (broadcastInDim S20x20x20x10 ![0, 1, 2, 3] bcast_S20x1x20x1_S20x20x20x10_0_1_2_3 (broadcastInDim S20x1x20x1 ![0, 2] bcast_S20x20_S20x1x20x1_0_2 eye))
        (broadcastInDim S20x20x20x10 ![0, 1, 2, 3] bcast_S1x20x1x10_S20x20x20x10_0_1_2_3 (broadcastInDim S1x20x1x10 ![1, 3] bcast_S20x10_S1x20x1x10_1_3
          (transpose S20x10 [1, 0] (m ((c : Thread nD τ).loc main_arg3)) transposes_S10x20_S20x10_1_0)))) shapeCasts_S20x20x20x10_S400x200) bitsLt_bf16_f32 := by
  dsimp only [Gen.V]
  simp only [hostOps0, hostOps0_1, hostOps0_2, hostOps0_3, hostOps0_4, hostOps0_5, hostOps0_6, List.flatten_cons, List.flatten_nil,
    List.append_nil, List.cons_append, List.nil_append]
  after_results
  rfl

/-- The second: `δ i j * W2[q, p]` at `(i*20+p, j*10+q)`. -/
theorem v14_apply (i p j : Fin 20) (q : Fin 10) (hf : i.val * 20 + p.val < 400) (hg : j.val * 10 + q.val < 200) :
    (V m c main_v14 : S400x200.Idx → EReal) (ix2 ⟨i.val * 20 + p.val, hf⟩ ⟨j.val * 10 + q.val, hg⟩)
      = (if i = j then (1 : EReal) else 0) * (m ((c : Thread nD τ).loc main_arg3) : S10x20.Idx → EReal) (ix2 q p) := by
  rw [e_v14]
  -- the change of float format is the identity on the extended reals; what is left is the Kronecker product's entry
  refine (kron_apply eye (transpose S20x10 [1, 0] (m ((c : Thread nD τ).loc main_arg3)) transposes_S10x20_S20x10_1_0) bcast_S20x20_S20x1x20x1_0_2 bcast_S20x10_S1x20x1x10_1_3
    bcast_S20x1x20x1_S20x20x20x10_0_1_2_3 bcast_S1x20x1x10_S20x20x20x10_0_1_2_3 shapeCasts_S20x20x20x10_S400x200 rfl i j p q hf hg).trans ?_
  rw [eye_apply, transpose_10_apply]

/-- The array the region finds in the third block-diagonal weight's buffer, as one term over the launch contents: the
    Kronecker product of the identity with the transposed weight, in the narrower float format. -/
theorem e_v17 : (V m c main_v17 : S200x400.Idx → EReal)
    = truncf (F := Ideal) .bf16 (shapeCast S200x400 (mulf (F := Ideal)
        (broadcastInDim S20x10x20x20 ![0, 1, 2, 3] bcast_S20x1x20x1_S20x10x20x20_0_1_2_3 (broadcastInDim S20x1x20x1 ![0, 2] bcast_S20x20_S20x1x20x1_0_2 eye))
        (broadcastInDim S20x10x20x20 ![0, 1, 2, 3] bcast_S1x10x1x20_S20x10x20x20_0_1_2_3 (broadcastInDim S1x10x1x20 ![1, 3] bcast_S10x20_S1x10x1x20_1_3
          (transpose S10x20 [1, 0] (m ((c : Thread nD τ).loc main_arg4)) transposes_S20x10_S10x20_1_0)))) shapeCasts_S20x10x20x20_S200x400) bitsLt_bf16_f32 := by
  dsimp only [Gen.V]
  simp only [hostOps0, hostOps0_1, hostOps0_2, hostOps0_3, hostOps0_4, hostOps0_5, hostOps0_6, List.flatten_cons, List.flatten_nil,
    List.append_nil, List.cons_append, List.nil_append]
  after_results
  rfl

/-- The third: `δ i j * W3[q, p]` at `(i*10+p, j*20+q)`. -/
theorem v17_apply (i : Fin 20) (p : Fin 10) (j q : Fin 20) (hf : i.val * 10 + p.val < 200) (hg : j.val * 20 + q.val < 400) :
    (V m c main_v17 : S200x400.Idx → EReal) (ix2 ⟨i.val * 10 + p.val, hf⟩ ⟨j.val * 20 + q.val, hg⟩)
      = (if i = j then (1 : EReal) else 0) * (m ((c : Thread nD τ).loc main_arg4) : S20x10.Idx → EReal) (ix2 q p) := by
  rw [e_v17]
  -- the change of float format is the identity on the extended reals; what is left is the Kronecker product's entry
  refine (kron_apply eye (transpose S10x20 [1, 0] (m ((c : Thread nD τ).loc main_arg4)) transposes_S20x10_S10x20_1_0) bcast_S20x20_S20x1x20x1_0_2 bcast_S10x20_S1x10x1x20_1_3
    bcast_S20x1x20x1_S20x10x20x20_0_1_2_3 bcast_S1x10x1x20_S20x10x20x20_0_1_2_3 shapeCasts_S20x10x20x20_S200x400 rfl i j p q hf hg).trans ?_
  rw [eye_apply, transpose_10_apply]

/-! ## The last weight -/

/-- The last weight's buffer: the launch contents in the narrower float format. -/
theorem e_v18 : (V m c main_v18 : S512x400.Idx → EReal)
    = truncf (F := Ideal) .bf16 (m ((c : Thread nD τ).loc main_arg5)) bitsLt_bf16_f32 := by
  dsimp only [Gen.V]
  simp only [hostOps0, hostOps0_1, hostOps0_2, hostOps0_3, hostOps0_4, hostOps0_5, hostOps0_6, List.flatten_cons, List.flatten_nil,
    List.append_nil, List.cons_append, List.nil_append]
  after_results

/-- The last weight: a change of float format only, the identity on the extended reals. -/
theorem v18_apply (e : Fin 512) (f : Fin 400) :
    (V m c main_v18 : S512x400.Idx → EReal) (ix2 e f)
      = (m ((c : Thread nD τ).loc main_arg5) : S512x400.Idx → EReal) (ix2 e f) := by
  -- the change of float format is the identity on the extended reals
  rw [e_v18]
  rfl

end Cert.KernelIdeal.HostSide

end
-- ==== Proof.KernelValue.lean ====
/-
  The kernel's result array after the run is `GraphNet.result` of the argument arrays.

  Grid point `t` works on rows `512 t … 512 t + 511`: the two input windows hold those rows of the flattened inputs,
  the five weight windows hold their whole arrays at every point, and the output window's block is those rows of the
  result. The body's value at a row (`BodyRow.body_row`) over the arrays the host operations wrote (`HostSide`) is
  the row function of that row of the arguments; the 128 blocks tile the 65536 rows, the block of row `b` being `b / 512`.
-/
import proofs.«407113_j6193342840985_3_alg».proof.Proof.Gen.KernelIdeal.Value
import proofs.«407113_j6193342840985_3_alg».proof.Proof.BodyRow
import proofs.«407113_j6193342840985_3_alg».proof.Proof.HostSide
import Idealize.ShloMosaic.Lib.Pipeline.Value

noncomputable section

namespace Cert.KernelIdeal.KernelValue

open Cert.KernelIdeal Cert.KernelIdeal.Gen Cert.KernelIdeal.Value Cert.KernelIdeal.BodyRow Cert.KernelIdeal.HostSide
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The result array as one function of the argument arrays. -/
abbrev G (c : Dev nD) : Buf (Elt Ideal) ((c : Thread nD τ).loc main_v19) :=
  GraphNet.result (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6))

/-- The printed index maps over the grid: the two inputs and the output move one block of rows per point, the
    weights stay. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

theorem lt_N (t : Fin cfg0.N) : t.val < 128 :=
  lt_of_lt_of_eq t.isLt (N_0 : cfg0.N = 128)

/-! ## The windows' blocks, named at their literal types and read at an index -/

abbrev blk0 (c : Dev nD) (t : Fin cfg0.N) : Vec Ideal S512x400 .f32 := iblk m c 0 t
abbrev blk1 (c : Dev nD) (t : Fin cfg0.N) : Vec Ideal S512x400 .f32 := iblk m c 1 t
abbrev blk2 (c : Dev nD) (t : Fin cfg0.N) : Vec Ideal S400x400 .bf16 := iblk m c 2 t
abbrev blk3 (c : Dev nD) (t : Fin cfg0.N) : Vec Ideal S400x200 .bf16 := iblk m c 3 t
abbrev blk4 (c : Dev nD) (t : Fin cfg0.N) : Vec Ideal S200x400 .bf16 := iblk m c 4 t
abbrev blk5 (c : Dev nD) (t : Fin cfg0.N) : Vec Ideal S512x400 .bf16 := iblk m c 5 t
abbrev blk6 (c : Dev nD) (t : Fin cfg0.N) : Vec Ideal S1x512 .f32 := iblk m c 6 t

/-- Row `r` of the first input's block at point `t` is row `512 t + r` of the flattened input. -/
theorem blk0_apply (c : Dev nD) (t : Fin cfg0.N) (r : Fin 512) (f : Fin 400) (hb : t.val * 512 + r.val < 65536) :
    (blk0 m c t (ix2 r f) : EReal) = (V m c main_v0 : S65536x400.Idx → EReal) (ix2 ⟨t.val * 512 + r.val, hb⟩ f) := by
  obtain ⟨e0, e1, -⟩ := idx_facts t
  unfold blk0 iblk
  rw [View.read_apply]
  show V m c main_v0 _ = V m c main_v0 _
  congr 1
  funext a
  apply Fin.ext
  match a with
  | ⟨0, _⟩ => show win0_0.index t (0 : Fin 2) * 512 + 1 * r.val = t.val * 512 + r.val; rw [e0]; omega
  | ⟨1, _⟩ => show win0_0.index t (1 : Fin 2) * 400 + 1 * f.val = f.val; rw [e1]; omega

/-- The same for the second input. -/
theorem blk1_apply (c : Dev nD) (t : Fin cfg0.N) (r : Fin 512) (f : Fin 400) (hb : t.val * 512 + r.val < 65536) :
    (blk1 m c t (ix2 r f) : EReal) = (V m c main_v1 : S65536x400.Idx → EReal) (ix2 ⟨t.val * 512 + r.val, hb⟩ f) := by
  obtain ⟨-, -, e0, e1, -⟩ := idx_facts t
  unfold blk1 iblk
  rw [View.read_apply]
  show V m c main_v1 _ = V m c main_v1 _
  congr 1
  funext a
  apply Fin.ext
  match a with
  | ⟨0, _⟩ => show win0_1.index t (0 : Fin 2) * 512 + 1 * r.val = t.val * 512 + r.val; rw [e0]; omega
  | ⟨1, _⟩ => show win0_1.index t (1 : Fin 2) * 400 + 1 * f.val = f.val; rw [e1]; omega

/-- A weight window's block is its whole array, at every point. -/
theorem blk2_apply (c : Dev nD) (t : Fin cfg0.N) (f g : Fin 400) :
    (blk2 m c t (ix2 f g) : EReal) = (V m c main_v11 : S400x400.Idx → EReal) (ix2 f g) := by
  obtain ⟨-, -, -, -, e0, e1, -⟩ := idx_facts t
  unfold blk2 iblk
  rw [View.read_apply]
  show V m c main_v11 _ = V m c main_v11 _
  congr 1
  funext a
  apply Fin.ext
  match a with
  | ⟨0, _⟩ => show win0_2.index t (0 : Fin 2) * 400 + 1 * f.val = f.val; rw [e0]; omega
  | ⟨1, _⟩ => show win0_2.index t (1 : Fin 2) * 400 + 1 * g.val = g.val; rw [e1]; omega

theorem blk3_apply (c : Dev nD) (t : Fin cfg0.N) (f : Fin 400) (g : Fin 200) :
    (blk3 m c t (ix2 f g) : EReal) = (V m c main_v14 : S400x200.Idx → EReal) (ix2 f g) := by
  obtain ⟨-, -, -, -, -, -, e0, e1, -⟩ := idx_facts t
  unfold blk3 iblk
  rw [View.read_apply]
  show V m c main_v14 _ = V m c main_v14 _
  congr 1
  funext a
  apply Fin.ext
  match a with
  | ⟨0, _⟩ => show win0_3.index t (0 : Fin 2) * 400 + 1 * f.val = f.val; rw [e0]; omega
  | ⟨1, _⟩ => show win0_3.index t (1 : Fin 2) * 200 + 1 * g.val = g.val; rw [e1]; omega

theorem blk4_apply (c : Dev nD) (t : Fin cfg0.N) (f : Fin 200) (g : Fin 400) :
    (blk4 m c t (ix2 f g) : EReal) = (V m c main_v17 : S200x400.Idx → EReal) (ix2 f g) := by
  obtain ⟨-, -, -, -, -, -, -, -, e0, e1, -⟩ := idx_facts t
  unfold blk4 iblk
  rw [View.read_apply]
  show V m c main_v17 _ = V m c main_v17 _
  congr 1
  funext a
  apply Fin.ext
  match a with
  | ⟨0, _⟩ => show win0_4.index t (0 : Fin 2) * 200 + 1 * f.val = f.val; rw [e0]; omega
  | ⟨1, _⟩ => show win0_4.index t (1 : Fin 2) * 400 + 1 * g.val = g.val; rw [e1]; omega

theorem blk5_apply (c : Dev nD) (t : Fin cfg0.N) (e : Fin 512) (f : Fin 400) :
    (blk5 m c t (ix2 e f) : EReal) = (V m c main_v18 : S512x400.Idx → EReal) (ix2 e f) := by
  obtain ⟨-, -, -, -, -, -, -, -, -, -, e0, e1, -⟩ := idx_facts t
  unfold blk5 iblk
  rw [View.read_apply]
  show V m c main_v18 _ = V m c main_v18 _
  congr 1
  funext a
  apply Fin.ext
  match a with
  | ⟨0, _⟩ => show win0_5.index t (0 : Fin 2) * 512 + 1 * e.val = e.val; rw [e0]; omega
  | ⟨1, _⟩ => show win0_5.index t (1 : Fin 2) * 400 + 1 * f.val = f.val; rw [e1]; omega

theorem blk6_apply (c : Dev nD) (t : Fin cfg0.N) (z : Fin 1) (e : Fin 512) :
    (blk6 m c t (ix2 z e) : EReal) = (V m c main_v2 : S1x512.Idx → EReal) (ix2 z e) := by
  obtain ⟨-, -, -, -, -, -, -, -, -, -, -, -, e0, e1, -⟩ := idx_facts t
  unfold blk6 iblk
  rw [View.read_apply]
  show V m c main_v2 _ = V m c main_v2 _
  congr 1
  funext a
  apply Fin.ext
  match a with
  | ⟨0, _⟩ => show win0_6.index t (0 : Fin 2) * 1 + 1 * z.val = z.val; rw [e0]; omega
  | ⟨1, _⟩ => show win0_6.index t (1 : Fin 2) * 512 + 1 * e.val = e.val; rw [e1]; omega

/-! ## What a point writes back -/

/-- Row `r` of the output block at point `t` sits at row `512 t + r` of the array. -/
theorem emb7 (t : Fin cfg0.N) (r e : Fin 512) (hb : t.val * 512 + r.val < 65536) :
    ((cfg0.win 7).blk t).view.emb (ix2 r e) = (ix2 ⟨t.val * 512 + r.val, hb⟩ e : S65536x512.Idx) := by
  obtain ⟨-, -, -, -, -, -, -, -, -, -, -, -, -, -, e0, e1⟩ := idx_facts t
  funext a
  apply Fin.ext
  match a with
  | ⟨0, _⟩ => show win0_7.index t (0 : Fin 2) * 512 + 1 * r.val = t.val * 512 + r.val; rw [e0]; omega
  | ⟨1, _⟩ => show win0_7.index t (1 : Fin 2) * 512 + 1 * e.val = e.val; rw [e1]; omega

/-- WHAT POINT `t` WRITES BACK is block `t` of `G`. -/
theorem flushed_eq (c : Dev nD) (t : Fin cfg0.N) :
    (dats m 0 c).flushed 7 t = ((cfg0.win 7).blk t).view.read (Elt Ideal) (G m c) := by
  rw [flushed7]
  funext y
  obtain ⟨r, e, rfl⟩ : ∃ (r e : Fin 512), y = ix2 r e := ⟨y 0, y 1, eq_ix2 y⟩
  have ht := lt_N t
  have hb : t.val * 512 + r.val < 65536 := by have := r.isLt; omega
  show (out0_7 (blk0 m c t) (blk1 m c t) (blk2 m c t) (blk3 m c t) (blk4 m c t) (blk5 m c t) (blk6 m c t) (ix2 r e) : EReal)
    = G m c (((cfg0.win 7).blk t).view.emb (ix2 r e))
  rw [emb7 t r e hb,
    body_row (blk0 m c t) (blk1 m c t) (blk2 m c t) (blk3 m c t) (blk4 m c t) (blk5 m c t) (blk6 m c t)
      (fun k d => (m ((c : Thread nD τ).loc main_arg2) : S20x20.Idx → EReal) (ix2 k d))
      (fun k d => (m ((c : Thread nD τ).loc main_arg3) : S10x20.Idx → EReal) (ix2 k d))
      (fun k d => (m ((c : Thread nD τ).loc main_arg4) : S20x10.Idx → EReal) (ix2 k d))
      (fun i p j q hf hg => (blk2_apply m c t _ _).trans (v11_apply m c i p j q hf hg))
      (fun i p j q hf hg => (blk3_apply m c t _ _).trans (v14_apply m c i p j q hf hg))
      (fun i p j q hf hg => (blk4_apply m c t _ _).trans (v17_apply m c i p j q hf hg))
      r e]
  show GraphNet.row _ _ _ _ _ _ _ e = GraphNet.row _ _ _ _ _ _ _ e
  have ha : rowTab (blk0 m c t) r
      = fun n o => (m ((c : Thread nD τ).loc main_arg0) : S65536x20x20.Idx → EReal) (ix3 ⟨t.val * 512 + r.val, hb⟩ n o) :=
    funext fun n => funext fun o => (blk0_apply m c t r _ hb).trans (v0_apply m c _ n o _)
  have hx : rowTab (blk1 m c t) r
      = fun o d => (m ((c : Thread nD τ).loc main_arg1) : S65536x20x20.Idx → EReal) (ix3 ⟨t.val * 512 + r.val, hb⟩ o d) :=
    funext fun o => funext fun d => (blk1_apply m c t r _ hb).trans (v1_apply m c _ o d _)
  have hw : (fun (e : Fin 512) (f : Fin 400) => (blk5 m c t (ix2 e f) : EReal))
      = fun e f => (m ((c : Thread nD τ).loc main_arg5) : S512x400.Idx → EReal) (ix2 e f) :=
    funext fun e => funext fun f => (blk5_apply m c t e f).trans (v18_apply m c e f)
  have hbias : (fun (e : Fin 512) => (blk6 m c t (ix2 (0 : Fin 1) e) : EReal))
      = fun e => (m ((c : Thread nD τ).loc main_arg6) : S512.Idx → EReal) (ix1 e) :=
    funext fun e => (blk6_apply m c t 0 e).trans (v2_apply m c 0 e)
  rw [ha, hx, hw, hbias]

/-! ## The blocks tile the array -/

/-- An index of the array is in point `t`'s block iff each coordinate is in the block's range on its axis. -/
theorem mem_blk (t : Fin cfg0.N) (i : S65536x512.Idx) :
    i ∈ ((cfg0.win 7).blk t).view.set ↔ ∀ a : Fin 2, win0_7.index t a * S512x512.size a ≤ (i a).val ∧ (i a).val < win0_7.index t a * S512x512.size a + S512x512.size a := by
  show i ∈ ((View.whole main_v19).slice (win0_7.rect t)).set ↔ _
  rw [View.set_slice_whole, Rect.mem_set_unit]
  exact Iff.rfl

/-- Row `b` is in the block of point `b / 512`. -/
theorem cover (i : S65536x512.Idx) :
    ∃ t : Fin cfg0.N, (cfg0.win 7).flush t = true ∧ i ∈ ((cfg0.win 7).blk t).view.set := by
  have hi0 : (i 0).val < 65536 := (i 0).isLt
  have hi1 : (i 1).val < 512 := (i 1).isLt
  have hN : cfg0.N = 128 := N_0
  refine ⟨⟨(i 0).val / 512, by rw [hN]; omega⟩, flush0_7 _, ?_⟩
  obtain ⟨-, -, -, -, -, -, -, -, -, -, -, -, -, -, e0, e1⟩ := idx_facts ⟨(i 0).val / 512, by rw [hN]; omega⟩
  rw [mem_blk]
  intro a
  match a with
  | ⟨0, _⟩ =>
    show win0_7.index _ (0 : Fin 2) * 512 ≤ (i 0).val ∧ (i 0).val < win0_7.index _ (0 : Fin 2) * 512 + 512
    rw [e0]; show (i 0).val / 512 * 512 ≤ (i 0).val ∧ (i 0).val < (i 0).val / 512 * 512 + 512; omega
  | ⟨1, _⟩ =>
    show win0_7.index _ (1 : Fin 2) * 512 ≤ (i 1).val ∧ (i 1).val < win0_7.index _ (1 : Fin 2) * 512 + 512
    rw [e1]; omega

/-- THE ARRAY after the run. -/
theorem final (c : Dev nD) : (dats m 0 c).arrAt 7 cfg0.N = G m c :=
  (dats m 0 c).arrAt_eq_of_cover 7 (G m c) (fun t _ => flushed_eq m c t) cover

/-- The run, read: the result array at `G` of the arguments, the arguments unchanged. -/
theorem run : θ_run defs (onTc (τ := τ) (main (F := Ideal))) ⟨m, fun _ => 0, ρ⟩ fun r => ∀ c : Dev nD,
      r.2.mem ((c : Thread nD τ).loc main_v19) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩) (run_blocks m ρ)

end Cert.KernelIdeal.KernelValue

end
-- ==== Proof.RefRow.lean ====
/-
  The reference's result array is `GraphNet.result` of the argument arrays: read one operation at a time, each
  contraction is the sum `mix`, `act`, `score` or the squared length names, each `relu` the positive part, the
  reshape the node-major flattening.
-/
import proofs.«407113_j6193342840985_3_alg».proof.Proof.Gen.ReferenceIdeal.Read
import proofs.«407113_j6193342840985_3_alg».proof.Proof.GraphNet

noncomputable section

namespace Cert.ReferenceIdeal.RefRow

open Cert.ReferenceIdeal Cert.ReferenceIdeal.Read Idealize.ShloMosaic Idealize.ShloMosaic.ValueIdx

/-! ## Row `b` of the argument arrays -/

/-- Row `b` of a batch of 20 x 20 tables. -/
abbrev rowOf (x : FVec Ideal S65536x20x20 .f32) (b : Fin 65536) : Fin 20 → Fin 20 → EReal :=
  fun n o => x (ix3 b n o)

/-- A rank-2 array read as a table. -/
abbrev tab {K D : Nat} (w : FVec Ideal (⟨2, ![K, D]⟩ : Shape) .f32) : Fin K → Fin D → EReal :=
  fun k d => w (ix2 k d)

/-! ## The contraction indices at an index given by its coordinates -/

theorem lidx0 (b : Fin 65536) (n d k : Fin 20) : lidx_main_v0 (ix3 b n d) k = ix3 b n k := by
  funext a; match a with | ⟨0, _⟩ => rfl | ⟨1, _⟩ => rfl | ⟨2, _⟩ => rfl
theorem ridx0 (b : Fin 65536) (n d k : Fin 20) : ridx_main_v0 (ix3 b n d) k = ix3 b k d := by
  funext a; match a with | ⟨0, _⟩ => rfl | ⟨1, _⟩ => rfl | ⟨2, _⟩ => rfl
theorem lidx1 (b : Fin 65536) (n d k : Fin 20) : lidx_main_v1 (ix3 b n d) k = ix3 b n k := by
  funext a; match a with | ⟨0, _⟩ => rfl | ⟨1, _⟩ => rfl | ⟨2, _⟩ => rfl
theorem ridx1 (b : Fin 65536) (n d k : Fin 20) : ridx_main_v1 (ix3 b n d) k = ix2 d k := by
  funext a; match a with | ⟨0, _⟩ => rfl | ⟨1, _⟩ => rfl

/-! ## The stages, one at a time -/

/-- The positive part's zero array. -/
theorem zero0 (i : S65536x20x20.Idx) : val_main_call0_v0 (F := Ideal) i = 0 := by
  rw [val_main_call0_v0_apply, val_main_call0_cst_apply]; exact Ideal.ofBits_zero_f32

theorem stage0 (x0 x1 : FVec Ideal S65536x20x20 .f32) (b : Fin 65536) (n d : Fin 20) :
    val_main_v0 (F := Ideal) x0 x1 (ix3 b n d) = GraphNet.mix (rowOf x0 b) (rowOf x1 b) n d := by
  rw [val_main_v0_apply]; unfold GraphNet.mix
  refine Finset.sum_congr rfl fun k _ => ?_
  rw [lidx0, ridx0]

theorem stage2 (x0 x1 : FVec Ideal S65536x20x20 .f32) (x2 : FVec Ideal S20x20 .f32) (b : Fin 65536) (n k : Fin 20) :
    val_main_v2 (F := Ideal) x0 x1 x2 (ix3 b n k)
      = GraphNet.act (GraphNet.mix (rowOf x0 b) (rowOf x1 b)) (tab x2) n k := by
  rw [val_main_v2_apply, zero0, Ideal.maximumf_def, val_main_v1_apply]; unfold GraphNet.act
  refine congrArg (fun t => max t 0) (Finset.sum_congr rfl fun d _ => ?_)
  rw [lidx1, ridx1, stage0]

theorem lidx3 (b : Fin 65536) (n d k : Fin 20) : lidx_main_v3 (ix3 b n d) k = ix3 b n k := by
  funext a; match a with | ⟨0, _⟩ => rfl | ⟨1, _⟩ => rfl | ⟨2, _⟩ => rfl
theorem ridx3 (b : Fin 65536) (n d k : Fin 20) : ridx_main_v3 (ix3 b n d) k = ix3 b k d := by
  funext a; match a with | ⟨0, _⟩ => rfl | ⟨1, _⟩ => rfl | ⟨2, _⟩ => rfl
theorem lidx4 (b : Fin 65536) (n : Fin 20) (d : Fin 10) (k : Fin 20) : lidx_main_v4 (ix3 b n d) k = ix3 b n k := by
  funext a; match a with | ⟨0, _⟩ => rfl | ⟨1, _⟩ => rfl | ⟨2, _⟩ => rfl
theorem ridx4 (b : Fin 65536) (n : Fin 20) (d : Fin 10) (k : Fin 20) : ridx_main_v4 (ix3 b n d) k = ix2 d k := by
  funext a; match a with | ⟨0, _⟩ => rfl | ⟨1, _⟩ => rfl
theorem lidx6 (b : Fin 65536) (n : Fin 20) (d : Fin 10) (k : Fin 20) : lidx_main_v6 (ix3 b n d) k = ix3 b n k := by
  funext a; match a with | ⟨0, _⟩ => rfl | ⟨1, _⟩ => rfl | ⟨2, _⟩ => rfl
theorem ridx6 (b : Fin 65536) (n : Fin 20) (d : Fin 10) (k : Fin 20) : ridx_main_v6 (ix3 b n d) k = ix3 b k d := by
  funext a; match a with | ⟨0, _⟩ => rfl | ⟨1, _⟩ => rfl | ⟨2, _⟩ => rfl
theorem lidx7 (b : Fin 65536) (n d : Fin 20) (k : Fin 10) : lidx_main_v7 (ix3 b n d) k = ix3 b n k := by
  funext a; match a with | ⟨0, _⟩ => rfl | ⟨1, _⟩ => rfl | ⟨2, _⟩ => rfl
theorem ridx7 (b : Fin 65536) (n d : Fin 20) (k : Fin 10) : ridx_main_v7 (ix3 b n d) k = ix2 d k := by
  funext a; match a with | ⟨0, _⟩ => rfl | ⟨1, _⟩ => rfl

theorem zero1 (i : S65536x20x10.Idx) : val_main_call1_v0 (F := Ideal) i = 0 := by
  rw [val_main_call1_v0_apply, val_main_call1_cst_apply]; exact Ideal.ofBits_zero_f32
theorem zero2 (i : S65536x20x20.Idx) : val_main_call2_v0 (F := Ideal) i = 0 := by
  rw [val_main_call2_v0_apply, val_main_call2_cst_apply]; exact Ideal.ofBits_zero_f32

/-- The first round's table of row `b`. -/
abbrev h1 (x0 x1 : FVec Ideal S65536x20x20 .f32) (x2 : FVec Ideal S20x20 .f32) (b : Fin 65536) : Fin 20 → Fin 20 → EReal :=
  GraphNet.act (GraphNet.mix (rowOf x0 b) (rowOf x1 b)) (tab x2)

/-- The second round's table of row `b`. -/
abbrev h2 (x0 x1 : FVec Ideal S65536x20x20 .f32) (x2 : FVec Ideal S20x20 .f32) (x3 : FVec Ideal S10x20 .f32) (b : Fin 65536) :
    Fin 20 → Fin 10 → EReal :=
  GraphNet.act (GraphNet.mix (rowOf x0 b) (h1 x0 x1 x2 b)) (tab x3)

theorem stage3 (x0 x1 : FVec Ideal S65536x20x20 .f32) (x2 : FVec Ideal S20x20 .f32) (b : Fin 65536) (n d : Fin 20) :
    val_main_v3 (F := Ideal) x0 x1 x2 (ix3 b n d) = GraphNet.mix (rowOf x0 b) (h1 x0 x1 x2 b) n d := by
  rw [val_main_v3_apply]; unfold GraphNet.mix
  refine Finset.sum_congr rfl fun k _ => ?_
  rw [lidx3, ridx3, stage2]

theorem stage5 (x0 x1 : FVec Ideal S65536x20x20 .f32) (x2 : FVec Ideal S20x20 .f32) (x3 : FVec Ideal S10x20 .f32)
    (b : Fin 65536) (n : Fin 20) (k : Fin 10) :
    val_main_v5 (F := Ideal) x0 x1 x2 x3 (ix3 b n k) = h2 x0 x1 x2 x3 b n k := by
  rw [val_main_v5_apply, zero1, Ideal.maximumf_def, val_main_v4_apply]
  show _ = GraphNet.act _ _ n k
  unfold GraphNet.act
  refine congrArg (fun t => max t 0) (Finset.sum_congr rfl fun d _ => ?_)
  rw [lidx4, ridx4, stage3]

theorem stage6 (x0 x1 : FVec Ideal S65536x20x20 .f32) (x2 : FVec Ideal S20x20 .f32) (x3 : FVec Ideal S10x20 .f32)
    (b : Fin 65536) (n : Fin 20) (d : Fin 10) :
    val_main_v6 (F := Ideal) x0 x1 x2 x3 (ix3 b n d) = GraphNet.mix (rowOf x0 b) (h2 x0 x1 x2 x3 b) n d := by
  rw [val_main_v6_apply]; unfold GraphNet.mix
  refine Finset.sum_congr rfl fun k _ => ?_
  rw [lidx6, ridx6, stage5]

theorem stage8 (x0 x1 : FVec Ideal S65536x20x20 .f32) (x2 : FVec Ideal S20x20 .f32) (x3 : FVec Ideal S10x20 .f32)
    (x4 : FVec Ideal S20x10 .f32) (b : Fin 65536) (n k : Fin 20) :
    val_main_v8 (F := Ideal) x0 x1 x2 x3 x4 (ix3 b n k)
      = GraphNet.feat (rowOf x0 b) (rowOf x1 b) (tab x2) (tab x3) (tab x4) n k := by
  rw [val_main_v8_apply, zero2, Ideal.maximumf_def, val_main_v7_apply]
  unfold GraphNet.feat
  show _ = GraphNet.act _ _ n k
  unfold GraphNet.act
  refine congrArg (fun t => max t 0) (Finset.sum_congr rfl fun d _ => ?_)
  rw [lidx7, ridx7, stage6]
  rfl

/-- The reshape's source index: position `b * 400 + f` of the flat array is node `f / 20`, feature `f % 20` of row `b`. -/
theorem idx9 (b : Fin 65536) (f : Fin 400) :
    idx_main_v9 (ix2 b f)
      = ix3 b (⟨f.val / 20, by have := f.isLt; omega⟩ : Fin 20) (⟨f.val % 20, Nat.mod_lt _ (by decide)⟩ : Fin 20) := by
  funext a
  match a with
  | ⟨0, _⟩ => exact Fin.ext (by show (b.val * 400 + f.val) / 400 = b.val; have := f.isLt; omega)
  | ⟨1, _⟩ => exact Fin.ext (by show (b.val * 400 + f.val) / 20 % 20 = f.val / 20; have := f.isLt; omega)
  | ⟨2, _⟩ => exact Fin.ext (by show (b.val * 400 + f.val) % 20 = f.val % 20; omega)

theorem lidx10 (b : Fin 65536) (e : Fin 512) (k : Fin 400) : lidx_main_v10 (ix2 b e) k = ix2 b k := by
  funext a; match a with | ⟨0, _⟩ => rfl | ⟨1, _⟩ => rfl
theorem ridx10 (b : Fin 65536) (e : Fin 512) (k : Fin 400) : ridx_main_v10 (ix2 b e) k = ix2 e k := by
  funext a; match a with | ⟨0, _⟩ => rfl | ⟨1, _⟩ => rfl
theorem idx12 (b : Fin 65536) (e : Fin 512) : idx_main_v11 (idx_main_v12 (ix2 b e)) = ix1 e := by
  funext a; match a with | ⟨0, _⟩ => rfl
theorem idx15 (b : Fin 65536) (k : Fin 512) : idx_main_v15 (ix1 b) k = ix2 b k := by
  funext a; match a with | ⟨0, _⟩ => rfl | ⟨1, _⟩ => rfl
theorem idx16 (b : Fin 65536) (z : Fin 1) : idx_main_v16 (ix2 b z) = ix1 b := by
  funext a; match a with | ⟨0, _⟩ => rfl
theorem idx20 (b : Fin 65536) (e : Fin 512) : idx_main_v20 (ix2 b e) = ix2 b (0 : Fin 1) := by
  funext a; match a with | ⟨0, _⟩ => rfl | ⟨1, _⟩ => rfl

/-- The third round's table of row `b`. -/
abbrev h3 (x0 x1 : FVec Ideal S65536x20x20 .f32) (x2 : FVec Ideal S20x20 .f32) (x3 : FVec Ideal S10x20 .f32)
    (x4 : FVec Ideal S20x10 .f32) (b : Fin 65536) : Fin 20 → Fin 20 → EReal :=
  GraphNet.feat (rowOf x0 b) (rowOf x1 b) (tab x2) (tab x3) (tab x4)

/-- Row `b`'s 512 scores. -/
abbrev sc (x0 x1 : FVec Ideal S65536x20x20 .f32) (x2 : FVec Ideal S20x20 .f32) (x3 : FVec Ideal S10x20 .f32)
    (x4 : FVec Ideal S20x10 .f32) (x5 : FVec Ideal S512x400 .f32) (x6 : FVec Ideal S512 .f32) (b : Fin 65536) : Fin 512 → EReal :=
  GraphNet.score (h3 x0 x1 x2 x3 x4 b) (tab x5) (fun e => x6 (ix1 e))

theorem stage9 (x0 x1 : FVec Ideal S65536x20x20 .f32) (x2 : FVec Ideal S20x20 .f32) (x3 : FVec Ideal S10x20 .f32)
    (x4 : FVec Ideal S20x10 .f32) (b : Fin 65536) (f : Fin 400) :
    val_main_v9 (F := Ideal) x0 x1 x2 x3 x4 (ix2 b f) = GraphNet.flat20 (h3 x0 x1 x2 x3 x4 b) f := by
  rw [val_main_v9_apply, idx9, stage8]
  rfl

theorem stage12 (x6 : FVec Ideal S512 .f32) (b : Fin 65536) (e : Fin 512) :
    val_main_v12 (F := Ideal) x6 (ix2 b e) = x6 (ix1 e) := by
  rw [val_main_v12_apply, val_main_v11_apply, idx12]

theorem stage13 (x0 x1 : FVec Ideal S65536x20x20 .f32) (x2 : FVec Ideal S20x20 .f32) (x3 : FVec Ideal S10x20 .f32)
    (x4 : FVec Ideal S20x10 .f32) (x5 : FVec Ideal S512x400 .f32) (x6 : FVec Ideal S512 .f32) (b : Fin 65536) (e : Fin 512) :
    val_main_v13 (F := Ideal) x0 x1 x2 x3 x4 x5 x6 (ix2 b e) = sc x0 x1 x2 x3 x4 x5 x6 b e := by
  rw [val_main_v13_apply, Ideal.addf_def, stage12, val_main_v10_apply]
  show _ = GraphNet.score _ _ _ e
  unfold GraphNet.score
  refine congrArg (fun t => t + x6 (ix1 e)) (Finset.sum_congr rfl fun f _ => ?_)
  rw [lidx10, ridx10, stage9]

theorem stage15 (x0 x1 : FVec Ideal S65536x20x20 .f32) (x2 : FVec Ideal S20x20 .f32) (x3 : FVec Ideal S10x20 .f32)
    (x4 : FVec Ideal S20x10 .f32) (x5 : FVec Ideal S512x400 .f32) (x6 : FVec Ideal S512 .f32) (b : Fin 65536) :
    val_main_v15 (F := Ideal) x0 x1 x2 x3 x4 x5 x6 (ix1 b)
      = ∑ k : Fin 512, sc x0 x1 x2 x3 x4 x5 x6 b k * sc x0 x1 x2 x3 x4 x5 x6 b k := by
  have hz : ∀ j : S_.Idx, (val_main_cst (F := Ideal)) j = 0 := fun _ => Ideal.ofBits_zero_f32
  rw [val_main_v15_apply, hz, zero_add]
  refine Finset.sum_congr rfl fun k _ => ?_
  rw [idx15, val_main_v14_apply, Ideal.mulf_def, stage13]

theorem stage19 (x0 x1 : FVec Ideal S65536x20x20 .f32) (x2 : FVec Ideal S20x20 .f32) (x3 : FVec Ideal S10x20 .f32)
    (x4 : FVec Ideal S20x10 .f32) (x5 : FVec Ideal S512x400 .f32) (x6 : FVec Ideal S512 .f32) (b : Fin 65536) (z : Fin 1) :
    val_main_v19 (F := Ideal) x0 x1 x2 x3 x4 x5 x6 (ix2 b z)
      = Ideal.sqrt (∑ k : Fin 512, sc x0 x1 x2 x3 x4 x5 x6 b k * sc x0 x1 x2 x3 x4 x5 x6 b k) + GraphNet.tiny := by
  rw [val_main_v19_apply, Ideal.addf_def, val_main_v17_apply, Ideal.hostUnary_sqrt_def, val_main_v16_apply, idx16, stage15,
    val_main_v18_apply, val_main_cst_0_apply]
  rfl

theorem stage21 (x0 x1 : FVec Ideal S65536x20x20 .f32) (x2 : FVec Ideal S20x20 .f32) (x3 : FVec Ideal S10x20 .f32)
    (x4 : FVec Ideal S20x10 .f32) (x5 : FVec Ideal S512x400 .f32) (x6 : FVec Ideal S512 .f32) (b : Fin 65536) (e : Fin 512) :
    val_main_v21 (F := Ideal) x0 x1 x2 x3 x4 x5 x6 (ix2 b e) = GraphNet.unitize (sc x0 x1 x2 x3 x4 x5 x6 b) e := by
  rw [val_main_v21_apply, Ideal.hostDivf_def, stage13, val_main_v20_apply, idx20, stage19]
  rfl

/-- The last stage of the reference, as a function of the seven argument arrays, is the row function applied row by row. -/
theorem ref_eq_result (x0 x1 : FVec Ideal S65536x20x20 .f32) (x2 : FVec Ideal S20x20 .f32) (x3 : FVec Ideal S10x20 .f32)
    (x4 : FVec Ideal S20x10 .f32) (x5 : FVec Ideal S512x400 .f32) (x6 : FVec Ideal S512 .f32) :
    val_main_v21 (F := Ideal) x0 x1 x2 x3 x4 x5 x6 = GraphNet.result x0 x1 x2 x3 x4 x5 x6 := by
  funext i
  obtain ⟨b, e, rfl⟩ : ∃ (b : Fin 65536) (e : Fin 512), i = ix2 b e := ⟨i 0, i 1, eq_ix2 i⟩
  rw [stage21]
  rfl

end Cert.ReferenceIdeal.RefRow

end
-- ==== Proof.lean ====
/-
  The kernel and its reference compute one function of the seven argument arrays, on the extended reals.

  Per batch row: three rounds of mixing the 20 nodes' features by the row's 20 x 20 matrix and sending every node's
  vector through a shared linear map and the positive part, then a linear map with bias on the 400 flattened features
  and a division by the Euclidean length plus a small constant (`GraphNet.row`, Proof/GraphNet.lean).

  The reference does this on whole arrays, each linear map a contraction over the feature axis (Proof/RefRow.lean, over
  the generated reading of its host operations). The kernel works on blocks of 512 rows and folds each shared linear map
  into ONE flat matrix product with a block-diagonal weight, the Kronecker product of the 20 x 20 identity with the
  transposed weight, which the host builds before the launch (Proof/HostSide.lean); on the extended reals the
  off-diagonal blocks contribute `u * (0 * w) = 0` and the diagonal block `u * (1 * w) = u * w` at every value, the
  infinities included, so the flat product is the shared map node by node and no finiteness of the inputs is used
  (`GraphNet.sum_blockdiag`; Proof/BodyOps.lean and Proof/BodyRow.lean read the body at an index). The 128 blocks tile
  the 65536 rows (Proof/KernelValue.lean, over the generated frame run with the result array named).

  Changes of float format are the identity on the extended reals, both programs carry the same binary32 word for the
  small constant, and square root and division are one function on both sides; nothing was rewritten by the
  idealization, so `preserves` is `True`.
-/
import proofs.«407113_j6193342840985_3_alg».proof.Defs
import proofs.«407113_j6193342840985_3_alg».proof.Proof.Gen.Kernel
import proofs.«407113_j6193342840985_3_alg».proof.Proof.Gen.Kernel.Frame
import proofs.«407113_j6193342840985_3_alg».proof.Proof.Gen.KernelIdeal
import proofs.«407113_j6193342840985_3_alg».proof.Proof.Gen.KernelIdeal.Frame
import proofs.«407113_j6193342840985_3_alg».proof.Proof.Gen.KernelIdeal.Value
import proofs.«407113_j6193342840985_3_alg».proof.Proof.Gen.ReferenceIdeal
import proofs.«407113_j6193342840985_3_alg».proof.Proof.Gen.ReferenceIdeal.Run
import proofs.«407113_j6193342840985_3_alg».proof.Proof.Gen.ReferenceIdeal.Read
import proofs.«407113_j6193342840985_3_alg».proof.Proof.Gen.Pre_finite_inputs
import proofs.«407113_j6193342840985_3_alg».proof.Proof.KernelValue
import proofs.«407113_j6193342840985_3_alg».proof.Proof.RefRow

noncomputable section

namespace Cert.Proof

open Idealize.ShloMosaic Idealize.ShloMosaic.TcCoe Idealize.SL.Sem

/-- The word-level kernel runs and leaves its arguments as they were. -/
theorem frame_kernel : @Cert.frame_Kernel Cert.Kernel.Gen.facts Cert.Pre_finite_inputs.Gen.facts :=
  fun m ρ _ => Cert.Kernel.Gen.frame m ρ

/-- So does the idealized kernel. -/
theorem frame_kernelIdeal : @Cert.frame_KernelIdeal Cert.KernelIdeal.Gen.facts Cert.Pre_finite_inputs.Gen.facts :=
  fun m ρ _ => Cert.KernelIdeal.Gen.frame m ρ

/-- The reference's frame is its run with the result dropped. -/
theorem frame_reference : @Cert.frame_ReferenceIdeal Cert.ReferenceIdeal.Gen.facts Cert.Pre_finite_inputs.Gen.facts :=
  fun m ρ _ => (θ_run Cert.ReferenceIdeal.defs _ _).mono (fun _ h c => (h c).2)
    (Cert.ReferenceIdeal.Value.run (F := Ideal) m ρ)

/-- Both runs end with the result array at `GraphNet.result` of arguments that agree. -/
theorem algebraic : @Cert.algebraic_KernelIdeal_ReferenceIdeal Cert.KernelIdeal.Gen.facts Cert.ReferenceIdeal.Gen.facts
    Cert.Pre_finite_inputs.Gen.facts := by
  intro m ρ m' ρ' _ hagree
  refine ⟨fun c => Cert.KernelIdeal.KernelValue.G m c, Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6⟩ := hagree c
  rw [Cert.ReferenceIdeal.Read.val_main_v21_eq, Cert.ReferenceIdeal.RefRow.ref_eq_result, h0, h1, h2, h3, h4, h5, h6]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
